-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v18_0)) (v1 : (c : Dev Cert.KernelIdeal.nD) → Buf (Elt Ideal) ((c.tc : Thread Cert.KernelIdeal.nD Cert.KernelIdeal.τ).loc Cert.KernelIdeal.main_v18_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18_0) = v0 c
          ∧ r.2.mem ((c.tc : Thread Cert.KernelIdeal.nD Cert.KernelIdeal.τ).loc Cert.KernelIdeal.main_v18_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S512x512 : Shape := ⟨2, ![512, 512]⟩
abbrev S512 : Shape := ⟨1, ![512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part5 {F : FTy → Type} [FloatOps F] (main_arg18 : FVec F S512 .f32) (main_v83 : IVec S_ 1) (main_v84 : FVec F S512x512 .f32) (main_cst_32 : FVec F S_ .f32) : IVec S_ 1 :=
  let main_v85 : FVec F S512x512 .f32 := broadcastInDim S512x512 ![] bcast_S_S512x512 main_cst_32
  let main_v86 : IVec S512x512 1 := cmpf .olt main_v84 main_v85
  let main_c_33 : IVec S_ 1 := constantI S_ 1 1#1
  let main_v87 : IVec S_ 1 := (fun x v => Host.reduce IntOp.andi x v reducesTo_S512x512_S_d0_1 h_S_) main_v86 main_c_33
  let main_v88 : IVec S_ 1 := andi main_v83 main_v87
  let main_v89 : FVec F S512 .f32 := Host.absf main_arg18
  let main_cst_34 : FVec F S_ .f32 := constant S_ .f32 0x7F800000#32
  let main_v90 : FVec F S512 .f32 := broadcastInDim S512 ![] bcast_S_S512 main_cst_34
  let main_v91 : IVec S512 1 := cmpf .olt main_v89 main_v90
  let main_c_35 : IVec S_ 1 := constantI S_ 1 1#1
  let main_v92 : IVec S_ 1 := (fun x v => Host.reduce IntOp.andi x v reducesTo_S512_S_d0 h_S_) main_v91 main_c_35
  let main_v93 : IVec S_ 1 := andi main_v88 main_v92
  main_v93

def fn_part4 {F : FTy → Type} [FloatOps F] (main_arg14 : FVec F S512 .f32) (main_arg15 : FVec F S512x512 .f32) (main_arg16 : FVec F S512 .f32) (main_arg17 : FVec F S512x512 .f32) (main_arg18 : FVec F S512 .f32) (main_v63 : IVec S_ 1) (main_v67 : IVec S_ 1) : IVec S_ 1 :=
  let main_v68 : IVec S_ 1 := andi main_v63 main_v67
  let main_v69 : FVec F S512 .f32 := Host.absf main_arg14
  let main_cst_26 : FVec F S_ .f32 := constant S_ .f32 0x7F800000#32
  let main_v70 : FVec F S512 .f32 := broadcastInDim S512 ![] bcast_S_S512 main_cst_26
  let main_v71 : IVec S512 1 := cmpf .olt main_v69 main_v70
  let main_c_27 : IVec S_ 1 := constantI S_ 1 1#1
  let main_v72 : IVec S_ 1 := (fun x v => Host.reduce IntOp.andi x v reducesTo_S512_S_d0 h_S_) main_v71 main_c_27
  let main_v73 : IVec S_ 1 := andi main_v68 main_v72
  let main_v74 : FVec F S512x512 .f32 := Host.absf main_arg15
  let main_cst_28 : FVec F S_ .f32 := constant S_ .f32 0x7F800000#32
  let main_v75 : FVec F S512x512 .f32 := broadcastInDim S512x512 ![] bcast_S_S512x512 main_cst_28
  let main_v76 : IVec S512x512 1 := cmpf .olt main_v74 main_v75
  let main_c_29 : IVec S_ 1 := constantI S_ 1 1#1
  let main_v77 : IVec S_ 1 := (fun x v => Host.reduce IntOp.andi x v reducesTo_S512x512_S_d0_1 h_S_) main_v76 main_c_29
  let main_v78 : IVec S_ 1 := andi main_v73 main_v77
  let main_v79 : FVec F S512 .f32 := Host.absf main_arg16
  let main_cst_30 : FVec F S_ .f32 := constant S_ .f32 0x7F800000#32
  let main_v80 : FVec F S512 .f32 := broadcastInDim S512 ![] bcast_S_S512 main_cst_30
  let main_v81 : IVec S512 1 := cmpf .olt main_v79 main_v80
  let main_c_31 : IVec S_ 1 := constantI S_ 1 1#1
  let main_v82 : IVec S_ 1 := (fun x v => Host.reduce IntOp.andi x v reducesTo_S512_S_d0 h_S_) main_v81 main_c_31
  let main_v83 : IVec S_ 1 := andi main_v78 main_v82
  let main_v84 : FVec F S512x512 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S512x512 .f32) (main_arg12 : FVec F S512 .f32) (main_arg13 : FVec F S512x512 .f32) (main_arg14 : FVec F S512 .f32) (main_arg15 : FVec F S512x512 .f32) (main_arg16 : FVec F S512 .f32) (main_arg17 : FVec F S512x512 .f32) (main_arg18 : FVec F S512 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S512x512 .f32 := Host.absf main_arg11
  let main_cst_20 : FVec F S_ .f32 := constant S_ .f32 0x7F800000#32
  let main_v55 : FVec F S512x512 .f32 := broadcastInDim S512x512 ![] bcast_S_S512x512 main_cst_20
  let main_v56 : IVec S512x512 1 := cmpf .olt main_v54 main_v55
  let main_c_21 : IVec S_ 1 := constantI S_ 1 1#1
  let main_v57 : IVec S_ 1 := (fun x v => Host.reduce IntOp.andi x v reducesTo_S512x512_S_d0_1 h_S_) main_v56 main_c_21
  let main_v58 : IVec S_ 1 := andi main_v53 main_v57
  let main_v59 : FVec F S512 .f32 := Host.absf main_arg12
  let main_cst_22 : FVec F S_ .f32 := constant S_ .f32 0x7F800000#32
  let main_v60 : FVec F S512 .f32 := broadcastInDim S512 ![] bcast_S_S512 main_cst_22
  let main_v61 : IVec S512 1 := cmpf .olt main_v59 main_v60
  let main_c_23 : IVec S_ 1 := constantI S_ 1 1#1
  let main_v62 : IVec S_ 1 := (fun x v => Host.reduce IntOp.andi x v reducesTo_S512_S_d0 h_S_) main_v61 main_c_23
  let main_v63 : IVec S_ 1 := andi main_v58 main_v62
  let main_v64 : FVec F S512x512 .f32 := Host.absf main_arg13
  let main_cst_24 : FVec F S_ .f32 := constant S_ .f32 0x7F800000#32
  let main_v65 : FVec F S512x512 .f32 := broadcastInDim S512x512 ![] bcast_S_S512x512 main_cst_24
  let main_v66 : IVec S512x512 1 := cmpf .olt main_v64 main_v65
  let main_c_25 : IVec S_ 1 := constantI S_ 1 1#1
  let main_v67 : IVec S_ 1 := (fun x v => Host.reduce IntOp.andi x v reducesTo_S512x512_S_d0_1 h_S_) main_v66 main_c_25
  fn_part4 (F := F) main_arg14 main_arg15 main_arg16 main_arg17 main_arg18 main_v63 main_v67

def fn_part2 {F : FTy → Type} [FloatOps F] (main_arg7 : FVec F S512x512 .f32) (main_arg8 : FVec F S512 .f32) (main_arg9 : FVec F S512x512 .f32) (main_arg10 : FVec F S512 .f32) (main_arg11 : FVec F S512x512 .f32) (main_arg12 : FVec F S512 .f32) (main_arg13 : FVec F S512x512 .f32) (main_arg14 : FVec F S512 .f32) (main_arg15 : FVec F S512x512 .f32) (main_arg16 : FVec F S512 .f32) (main_arg17 : FVec F S512x512 .f32) (main_arg18 : FVec F S512 .f32) (main_v33 : IVec S_ 1) : IVec S_ 1 :=
  let main_v34 : FVec F S512x512 .f32 := Host.absf main_arg7
  let main_cst_12 : FVec F S_ .f32 := constant S_ .f32 0x7F800000#32
  let main_v35 : FVec F S512x512 .f32 := broadcastInDim S512x512 ![] bcast_S_S512x512 main_cst_12
  let main_v36 : IVec S512x512 1 := cmpf .olt main_v34 main_v35
  let main_c_13 : IVec S_ 1 := constantI S_ 1 1#1
  let main_v37 : IVec S_ 1 := (fun x v => Host.reduce IntOp.andi x v reducesTo_S512x512_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512x512 .f32 := Host.absf main_arg9
  let main_cst_16 : FVec F S_ .f32 := constant S_ .f32 0x7F800000#32
  let main_v45 : FVec F S512x512 .f32 := broadcastInDim S512x512 ![] bcast_S_S512x512 main_cst_16
  let main_v46 : IVec S512x512 1 := cmpf .olt main_v44 main_v45
  let main_c_17 : IVec S_ 1 := constantI S_ 1 1#1
  let main_v47 : IVec S_ 1 := (fun x v => Host.reduce IntOp.andi x v reducesTo_S512x512_S_d0_1 h_S_) main_v46 main_c_17
  let main_v48 : IVec S_ 1 := andi main_v43 main_v47
  let main_v49 : FVec F S512 .f32 := Host.absf main_arg10
  let main_cst_18 : FVec F S_ .f32 := constant S_ .f32 0x7F800000#32
  let main_v50 : FVec F S512 .f32 := broadcastInDim S512 ![] bcast_S_S512 main_cst_18
  fn_part3 (F := F) main_arg11 main_arg12 main_arg13 main_arg14 main_arg15 main_arg16 main_arg17 main_arg18 main_v48 main_v49 main_v50

def fn_part1 {F : FTy → Type} [FloatOps F] (main_arg4 : FVec F S512 .f32) (main_arg5 : FVec F S512x512 .f32) (main_arg6 : FVec F S512 .f32) (main_arg7 : FVec F S512x512 .f32) (main_arg8 : FVec F S512 .f32) (main_arg9 : FVec F S512x512 .f32) (main_arg10 : FVec F S512 .f32) (main_arg11 : FVec F S512x512 .f32) (main_arg12 : FVec F S512 .f32) (main_arg13 : FVec F S512x512 .f32) (main_arg14 : FVec F S512 .f32) (main_arg15 : FVec F S512x512 .f32) (main_arg16 : FVec F S512 .f32) (main_arg17 : FVec F S512x512 .f32) (main_arg18 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S8192x512 .f32) (main_arg1 : FVec F S8192x512 .f32) (main_arg2 : FVec F S8192x512 .f32) (main_arg3 : FVec F S512x512 .f32) (main_arg4 : FVec F S512 .f32) (main_arg5 : FVec F S512x512 .f32) (main_arg6 : FVec F S512 .f32) (main_arg7 : FVec F S512x512 .f32) (main_arg8 : FVec F S512 .f32) (main_arg9 : FVec F S512x512 .f32) (main_arg10 : FVec F S512 .f32) (main_arg11 : FVec F S512x512 .f32) (main_arg12 : FVec F S512 .f32) (main_arg13 : FVec F S512x512 .f32) (main_arg14 : FVec F S512 .f32) (main_arg15 : FVec F S512x512 .f32) (main_arg16 : FVec F S512 .f32) (main_arg17 : FVec F S512x512 .f32) (main_arg18 : FVec F S512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S8192x512 .f32 := Host.absf main_arg2
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  let main_c_3 : IVec S_ 1 := constantI S_ 1 1#1
  let main_v12 : IVec S_ 1 := (fun x v => Host.reduce IntOp.andi x v reducesTo_S8192x512_S_d0_1 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S8192x512 : Shape := ⟨2, ![8192, 512]⟩
abbrev S512x512 : Shape := ⟨2, ![512, 512]⟩
abbrev S512 : Shape := ⟨1, ![512]⟩
abbrev S512x2048 : Shape := ⟨2, ![512, 2048]⟩
abbrev S2048 : Shape := ⟨1, ![2048]⟩
abbrev S1x2048 : Shape := ⟨2, ![1, 2048]⟩

abbrev nBuf : Space → Nat
  | .hbm => 39
  | .vmem => 13
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512x512, .f32⟩
  | .hbm, ⟨10, _⟩ => ⟨S512, .f32⟩
  | .hbm, ⟨11, _⟩ => ⟨S512x512, .f32⟩
  | .hbm, ⟨12, _⟩ => ⟨S512, .f32⟩
  | .hbm, ⟨13, _⟩ => ⟨S512x512, .f32⟩
  | .hbm, ⟨14, _⟩ => ⟨S512, .f32⟩
  | .hbm, ⟨15, _⟩ => ⟨S512x512, .f32⟩
  | .hbm, ⟨16, _⟩ => ⟨S512, .f32⟩
  | .hbm, ⟨17, _⟩ => ⟨S512x512, .f32⟩
  | .hbm, ⟨18, _⟩ => ⟨S512, .f32⟩
  | .hbm, ⟨19, _⟩ => ⟨S512x512, .f32⟩
  | .hbm, ⟨20, _⟩ => ⟨S512x512, .f32⟩
  | .hbm, ⟨21, _⟩ => ⟨S512x512, .f32⟩
  | .hbm, ⟨22, _⟩ => ⟨S512x512, .f32⟩
  | .hbm, ⟨23, _⟩ => ⟨S512x2048, .f32⟩
  | .hbm, ⟨24, _⟩ => ⟨S512x512, .f32⟩
  | .hbm, ⟨25, _⟩ => ⟨S512x512, .f32⟩
  | .hbm, ⟨26, _⟩ => ⟨S512x512, .f32⟩
  | .hbm, ⟨27, _⟩ => ⟨S512x512, .f32⟩
  | .hbm, ⟨28, _⟩ => ⟨S512x2048, .f32⟩
  | .hbm, ⟨29, _⟩ => ⟨S512, .f32⟩
  | .hbm, ⟨30, _⟩ => ⟨S512, .f32⟩
  | .hbm, ⟨31, _⟩ => ⟨S512, .f32⟩
  | .hbm, ⟨32, _⟩ => ⟨S512, .f32⟩
  | .hbm, ⟨33, _⟩ => ⟨S2048, .f32⟩
  | .hbm, ⟨34, _⟩ => ⟨S1x2048, .f32⟩
  | .hbm, ⟨35, _⟩ => ⟨S512x2048, .bf16⟩
  | .hbm, ⟨36, _⟩ => ⟨S512x2048, .bf16⟩
  | .hbm, ⟨37, _⟩ => ⟨S8192x512, .f32⟩
  | .hbm, ⟨38, _⟩ => ⟨S8192x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x2048, .bf16⟩
  | .local _ .vmem, ⟨7, _⟩ => ⟨S512x2048, .bf16⟩
  | .local _ .vmem, ⟨8, _⟩ => ⟨S1x2048, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18_0 : Ref sig .tc := ⟨.hbm, 37, rfl⟩
abbrev main_v18_1 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S512x512_S512x512_1_0 : S512x512.Transposes [1, 0] S512x512
  concatenates_S512x512_S512x512_S512x512_S512x512_S512x2048_d1 : Shape.Concatenates [S512x512, S512x512, S512x512, S512x512] S512x2048 1
  concatenates_S512_S512_S512_S512_S2048_d0 : Shape.Concatenates [S512, S512, S512, S512] S2048 0
  shapeCasts_S2048_S1x2048 : S2048.ShapeCasts S1x2048
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  slices_S512x2048_o0_0_S512x512 : S512x2048.Slices ![0, 0] S512x512
  slices_S512x2048_o0_512_S512x512 : S512x2048.Slices ![0, 512] S512x512
  slices_S512x2048_o0_1024_S512x512 : S512x2048.Slices ![0, 1024] S512x512
  slices_S512x2048_o0_1536_S512x512 : S512x2048.Slices ![0, 1536] S512x512
  dot_S512x512_S512x2048_S512x2048_1_0_0_1_n_n_wf : DotDims.WF S512x512 S512x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S8192x512.size a
  hwx0_0 : ∀ i : grid0.Coords, EltTy.bits .f32 = 32 ∨ (Rect.block (s := S8192x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S8192x512.size a
  hwx0_1 : ∀ i : grid0.Coords, EltTy.bits .f32 = 32 ∨ (Rect.block (s := S8192x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S8192x512.size a
  hwx0_2 : ∀ i : grid0.Coords, EltTy.bits .f32 = 32 ∨ (Rect.block (s := S8192x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S512x2048.size a
  hwx0_3 : ∀ i : grid0.Coords, EltTy.bits .bf16 = 32 ∨ (Rect.block (s := S512x2048) S512x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S512x2048.size a
  hwx0_4 : ∀ i : grid0.Coords, EltTy.bits .bf16 = 32 ∨ (Rect.block (s := S512x2048) S512x2048.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x2048.size a
  hwx0_5 : ∀ i : grid0.Coords, EltTy.bits .f32 = 32 ∨ (Rect.block (s := S1x2048) S1x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S8192x512.size a
  hwx0_6 : ∀ i : grid0.Coords, EltTy.bits .f32 = 32 ∨ (Rect.block (s := S8192x512) S512x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x512.size a ≤ S8192x512.size a
  hwx0_7 : ∀ i : grid0.Coords, EltTy.bits .f32 = 32 ∨ (Rect.block (s := S8192x512) S512x512.size (cc0_transform_7 i) (hinb0_7 i)).WholeWords (EltTy.packing .f32)

variable [Facts₀]

def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S512x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S512x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18_0) S512x512.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v18_1) S512x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8192x512 : Shape := ⟨2, ![8192, 512]⟩
abbrev S512x512 : Shape := ⟨2, ![512, 512]⟩
abbrev S512 : Shape := ⟨1, ![512]⟩
abbrev S1x512x512 : Shape := ⟨3, ![1, 512, 512]⟩
abbrev S4x512x512 : Shape := ⟨3, ![4, 512, 512]⟩
abbrev S1x512 : Shape := ⟨2, ![1, 512]⟩
abbrev S4x512 : Shape := ⟨2, ![4, 512]⟩
abbrev S8192x4x512 : Shape := ⟨3, ![8192, 4, 512]⟩
abbrev S1x4x512 : Shape := ⟨3, ![1, 4, 512]⟩
abbrev S8192x1x512 : Shape := ⟨3, ![8192, 1, 512]⟩
abbrev S_ : Shape := ⟨0, ![]⟩

abbrev nBuf : Space → Nat
  | .hbm => 86
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512x512, .f32⟩
  | .hbm, ⟨10, _⟩ => ⟨S512, .f32⟩
  | .hbm, ⟨11, _⟩ => ⟨S512x512, .f32⟩
  | .hbm, ⟨12, _⟩ => ⟨S512, .f32⟩
  | .hbm, ⟨13, _⟩ => ⟨S512x512, .f32⟩
  | .hbm, ⟨14, _⟩ => ⟨S512, .f32⟩
  | .hbm, ⟨15, _⟩ => ⟨S512x512, .f32⟩
  | .hbm, ⟨16, _⟩ => ⟨S512, .f32⟩
  | .hbm, ⟨17, _⟩ => ⟨S512x512, .f32⟩
  | .hbm, ⟨18, _⟩ => ⟨S512, .f32⟩
  | .hbm, ⟨19, _⟩ => ⟨S1x512x512, .f32⟩
  | .hbm, ⟨20, _⟩ => ⟨S1x512x512, .f32⟩
  | .hbm, ⟨21, _⟩ => ⟨S1x512x512, .f32⟩
  | .hbm, ⟨22, _⟩ => ⟨S1x512x512, .f32⟩
  | .hbm, ⟨23, _⟩ => ⟨S4x512x512, .f32⟩
  | .hbm, ⟨24, _⟩ => ⟨S1x512, .f32⟩
  | .hbm, ⟨25, _⟩ => ⟨S1x512, .f32⟩
  | .hbm, ⟨26, _⟩ => ⟨S1x512, .f32⟩
  | .hbm, ⟨27, _⟩ => ⟨S1x512, .f32⟩
  | .hbm, ⟨28, _⟩ => ⟨S4x512, .f32⟩
  | .hbm, ⟨29, _⟩ => ⟨S1x512x512, .f32⟩
  | .hbm, ⟨30, _⟩ => ⟨S1x512x512, .f32⟩
  | .hbm, ⟨31, _⟩ => ⟨S1x512x512, .f32⟩
  | .hbm, ⟨32, _⟩ => ⟨S1x512x512, .f32⟩
  | .hbm, ⟨33, _⟩ => ⟨S4x512x512, .f32⟩
  | .hbm, ⟨34, _⟩ => ⟨S1x512, .f32⟩
  | .hbm, ⟨35, _⟩ => ⟨S1x512, .f32⟩
  | .hbm, ⟨36, _⟩ => ⟨S1x512, .f32⟩
  | .hbm, ⟨37, _⟩ => ⟨S1x512, .f32⟩
  | .hbm, ⟨38, _⟩ => ⟨S4x512, .f32⟩
  | .hbm, ⟨39, _⟩ => ⟨S8192x4x512, .f32⟩
  | .hbm, ⟨40, _⟩ => ⟨S1x4x512, .f32⟩
  | .hbm, ⟨41, _⟩ => ⟨S8192x4x512, .f32⟩
  | .hbm, ⟨42, _⟩ => ⟨S8192x4x512, .f32⟩
  | .hbm, ⟨43, _⟩ => ⟨S8192x4x512, .f32⟩
  | .hbm, ⟨44, _⟩ => ⟨S8192x4x512, .f32⟩
  | .hbm, ⟨45, _⟩ => ⟨S1x4x512, .f32⟩
  | .hbm, ⟨46, _⟩ => ⟨S8192x4x512, .f32⟩
  | .hbm, ⟨47, _⟩ => ⟨S8192x4x512, .f32⟩
  | .hbm, ⟨48, _⟩ => ⟨S8192x1x512, .f32⟩
  | .hbm, ⟨49, _⟩ => ⟨S8192x512, .f32⟩
  | .hbm, ⟨50, _⟩ => ⟨S8192x512, .f32⟩
  | .hbm, ⟨51, _⟩ => ⟨S8192x512, .f32⟩
  | .hbm, ⟨52, _⟩ => ⟨S_, .f32⟩
  | .hbm, ⟨53, _⟩ => ⟨S8192x512, .f32⟩
  | .hbm, ⟨54, _⟩ => ⟨S8192x512, .f32⟩
  | .hbm, ⟨55, _⟩ => ⟨S_, .f32⟩
  | .hbm, ⟨56, _⟩ => ⟨S8192x512, .f32⟩
  | .hbm, ⟨57, _⟩ => ⟨S8192x512, .f32⟩
  | .hbm, ⟨58, _⟩ => ⟨S8192x1x512, .f32⟩
  | .hbm, ⟨59, _⟩ => ⟨S8192x512, .f32⟩
  | .hbm, ⟨60, _⟩ => ⟨S8192x512, .f32⟩
  | .hbm, ⟨61, _⟩ => ⟨S8192x1x512, .f32⟩
  | .hbm, ⟨62, _⟩ => ⟨S8192x512, .f32⟩
  | .hbm, ⟨63, _⟩ => ⟨S8192x512, .f32⟩
  | .hbm, ⟨64, _⟩ => ⟨S8192x512, .f32⟩
  | .hbm, ⟨65, _⟩ => ⟨S_, .f32⟩
  | .hbm, ⟨66, _⟩ => ⟨S8192x512, .f32⟩
  | .hbm, ⟨67, _⟩ => ⟨S8192x512, .f32⟩
  | .hbm, ⟨68, _⟩ => ⟨S_, .f32⟩
  | .hbm, ⟨69, _⟩ => ⟨S8192x512, .f32⟩
  | .hbm, ⟨70, _⟩ => ⟨S8192x512, .f32⟩
  | .hbm, ⟨71, _⟩ => ⟨S8192x1x512, .f32⟩
  | .hbm, ⟨72, _⟩ => ⟨S8192x512, .f32⟩
  | .hbm, ⟨73, _⟩ => ⟨S8192x512, .f32⟩
  | .hbm, ⟨74, _⟩ => ⟨S8192x512, .f32⟩
  | .hbm, ⟨75, _⟩ => ⟨S_, .f32⟩
  | .hbm, ⟨76, _⟩ => ⟨S8192x512, .f32⟩
  | .hbm, ⟨77, _⟩ => ⟨S8192x512, .f32⟩
  | .hbm, ⟨78, _⟩ => ⟨S_, .f32⟩
  | .hbm, ⟨79, _⟩ => ⟨S8192x512, .f32⟩
  | .hbm, ⟨80, _⟩ => ⟨S8192x512, .f32⟩
  | .hbm, ⟨81, _⟩ => ⟨S8192x512, .f32⟩
  | .hbm, ⟨82, _⟩ => ⟨S8192x512, .f32⟩
  | .hbm, ⟨83, _⟩ => ⟨S8192x512, .f32⟩
  | .hbm, ⟨84, _⟩ => ⟨S8192x512, .f32⟩
  | .hbm, ⟨85, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst : Ref sig .tc := ⟨.hbm, 52, rfl⟩
abbrev main_v33 : Ref sig .tc := ⟨.hbm, 53, rfl⟩
abbrev main_v34 : Ref sig .tc := ⟨.hbm, 54, rfl⟩
abbrev main_cst_0 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_1 : Ref sig .tc := ⟨.hbm, 65, rfl⟩
abbrev main_v44 : Ref sig .tc := ⟨.hbm, 66, rfl⟩
abbrev main_v45 : Ref sig .tc := ⟨.hbm, 67, rfl⟩
abbrev main_cst_2 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_3 : Ref sig .tc := ⟨.hbm, 75, rfl⟩
abbrev main_v52 : Ref sig .tc := ⟨.hbm, 76, rfl⟩
abbrev main_v53 : Ref sig .tc := ⟨.hbm, 77, rfl⟩
abbrev main_cst_4 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩

abbrev nD : Nat := 1
abbrev τ : Topo := Topo.v7x

variable {F : FTy → Type} [FloatOps F]

class Facts₀ : Prop where
  bcast_S512x512_S1x512x512_1_2 : S512x512.BroadcastsInDim S1x512x512 (![1, 2] : Fin 2 → Fin S1x512x512.rank)
  concatenates_S1x512x512_S1x512x512_S1x512x512_S1x512x512_S4x512x512_d0 : Shape.Concatenates [S1x512x512, S1x512x512, S1x512x512, S1x512x512] S4x512x512 0
  bcast_S512_S1x512_1 : S512.BroadcastsInDim S1x512 (![1] : Fin 1 → Fin S1x512.rank)
  concatenates_S1x512_S1x512_S1x512_S1x512_S4x512_d0 : Shape.Concatenates [S1x512, S1x512, S1x512, S1x512] S4x512 0
  bcast_S4x512_S1x4x512_1_2 : S4x512.BroadcastsInDim S1x4x512 (![1, 2] : Fin 2 → Fin S1x4x512.rank)
  bcast_S1x4x512_S8192x4x512_0_1_2 : S1x4x512.BroadcastsInDim S8192x4x512 (![0, 1, 2] : Fin 3 → Fin S8192x4x512.rank)
  slices_S8192x4x512_S8192x1x512_0_0_0 : S8192x4x512.Slices ![0, 0, 0] S8192x1x512
  shapeCasts_S8192x1x512_S8192x512 : S8192x1x512.ShapeCasts S8192x512
  bcast_S_S8192x512 : S_.BroadcastsInDim S8192x512 (![] : Fin 0 → Fin S8192x512.rank)
  slices_S8192x4x512_S8192x1x512_0_1_0 : S8192x4x512.Slices ![0, 1, 0] S8192x1x512
  slices_S8192x4x512_S8192x1x512_0_2_0 : S8192x4x512.Slices ![0, 2, 0] S8192x1x512
  slices_S8192x4x512_S8192x1x512_0_3_0 : S8192x4x512.Slices ![0, 3, 0] S8192x1x512
  dot_S8192x512_S4x512x512_S8192x4x512_1_2_0_01_n_n_wf : DotDims.WF S8192x512 S4x512x512 S8192x4x512 [1] [2] [0] [0, 1] [] []

variable [Facts₀]

def dot_S8192x512_S4x512x512_S8192x4x512_1_2_0_01_n_n : DotDims S8192x512 S4x512x512 S8192x4x512 where
  lhsContracting := [1]
  rhsContracting := [2]
  lhsNonContracting := [0]
  rhsNonContracting := [0, 1]
  lhsBatch := []
  rhsBatch := []
  wf := dot_S8192x512_S4x512x512_S8192x4x512_1_2_0_01_n_n_wf

class Facts : Prop extends Facts₀ where

variable [Facts]
-- ==== Proof.CellFrameIdeal.lean ====
/-
  The frame of the LSTM-cell program, at any float family: @main is eighteen host operations (the four
  gate weights of each projection transposed and laid side by side into one 512 x 2048 matrix, the eight bias
  vectors added in pairs and laid end to end into one row of 2048, the two matrices narrowed to bf16) and then ONE
  pipelined region over sixteen batch tiles of 512 rows. The region stages a tile of x, of h and of c, the two
  weight matrices and the bias row (these three fetched once: their block index never moves), and writes back a
  tile of the new hidden state and a tile of the new cell state at every point.

  What is proved here: the contents the region finds (no host operation writes an argument array, so each is found
  as launched); what the body leaves in the two output buffers, as the single covering store of each over the
  loaded blocks; the body's triple; the pipeline's proof data and body obligation; the run, whose post names each
  output array after the last write-back; and the frame: every argument array ends as it began.
-/
import proofs.«144557_j52338471469772_1_alg».proof.Proof.Gen.KernelIdeal.Launch
import proofs.«144557_j52338471469772_1_alg».proof.Proof.Gen.KernelIdeal.Skeleton
import proofs.«144557_j52338471469772_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Cell

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the eighteen host operations. -/
abbrev V (c : Dev nD) (b : Ref sig .tc) : Buf (Elt F) ((c : Thread nD τ).loc b) :=
  StableHlo.after hostOps0 (fun b => m (c, b)) b

/-- No host operation allocates. -/
theorem hostOps0_fresh : (hostOps0 : List (HloOp τ sig (Elt F))).Forall fun op => op.fresh = ∅ := by
  simp only [List.Forall]; repeat' constructor

/-- @main is its host operations and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host operations write `main_v0` … `main_v17` and nothing else: a buffer that is none of these is found by
    the region as launched. -/
theorem V_kept (c : Dev nD) (b : Ref sig .tc)
    (hb : b ≠ main_v0 ∧ b ≠ main_v1 ∧ b ≠ main_v2 ∧ b ≠ main_v3 ∧ b ≠ main_v4 ∧ b ≠ main_v5 ∧ b ≠ main_v6 ∧ b ≠ main_v7 ∧ b ≠ main_v8 ∧ b ≠ main_v9 ∧ b ≠ main_v10 ∧ b ≠ main_v11 ∧ b ≠ main_v12 ∧ b ≠ main_v13 ∧ b ≠ main_v14 ∧ b ≠ main_v15 ∧ b ≠ main_v16 ∧ b ≠ main_v17) :
    V m c b = m ((c : Thread nD τ).loc b) := by
  obtain ⟨h0, h1, h2, h3, h4, h5, h6, h7, h8, h9, h10, h11, h12, h13, h14, h15, h16, h17⟩ := hb
  refine StableHlo.after_of_forall_not_mem (b := Proc.devRef .tc b) _ _ (List.forall_iff_forall_mem.mp ?_)
  simp only [hostOps0, List.Forall, StableHlo.unary_writes, StableHlo.binary_writes, StableHlo.nary_writes,
    StableHlo.reshape_writes, Finset.mem_singleton]
  exact ⟨StableHlo.devRef_ne_of_ne h0, StableHlo.devRef_ne_of_ne h1, StableHlo.devRef_ne_of_ne h2, StableHlo.devRef_ne_of_ne h3, StableHlo.devRef_ne_of_ne h4, StableHlo.devRef_ne_of_ne h5, StableHlo.devRef_ne_of_ne h6, StableHlo.devRef_ne_of_ne h7, StableHlo.devRef_ne_of_ne h8, StableHlo.devRef_ne_of_ne h9, StableHlo.devRef_ne_of_ne h10, StableHlo.devRef_ne_of_ne h11, StableHlo.devRef_ne_of_ne h12, StableHlo.devRef_ne_of_ne h13, StableHlo.devRef_ne_of_ne h14, StableHlo.devRef_ne_of_ne h15, StableHlo.devRef_ne_of_ne h16, StableHlo.devRef_ne_of_ne h17⟩

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not (where it is not
    fetched its block index has not moved), for any proof data over the region-entry contents whose body leaves the
    block in place. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not (where it is not
    fetched its block index has not moved), for any proof data over the region-entry contents whose body leaves the
    block in place. -/
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not (where it is not
    fetched its block index has not moved), for any proof data over the region-entry contents whose body leaves the
    block in place. -/
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not (where it is not
    fetched its block index has not moved), for any proof data over the region-entry contents whose body leaves the
    block in place. -/
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not (where it is not
    fetched its block index has not moved), for any proof data over the region-entry contents whose body leaves the
    block in place. -/
theorem before_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not (where it is not
    fetched its block index has not moved), for any proof data over the region-entry contents whose body leaves the
    block in place. -/
theorem before_in5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- In a final state satisfying the library's frame post, over any proof data on the region-entry contents, every
    argument array is as launched: x, h and c are staged inputs, so each ends at its entry contents; the sixteen weight
    and bias arguments are staged by no window and bypass the region; and each entry contents is the launch contents
    (`V_kept`). -/
theorem args_kept (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  ⟨((h c).1 0).trans (((dats 0 c).arrAt_in 0 rfl _).trans ((hA c 0).trans (V_kept m c main_arg0 (by decide)))),
    ((h c).1 1).trans (((dats 0 c).arrAt_in 1 rfl _).trans ((hA c 1).trans (V_kept m c main_arg1 (by decide)))),
    ((h c).1 2).trans (((dats 0 c).arrAt_in 2 rfl _).trans ((hA c 2).trans (V_kept m c main_arg2 (by decide)))),
    ((h c).2 main_arg3 (Pipeline.mem_restRefs_of main_arg3 (by decide) (by decide))).trans (V_kept m c main_arg3 (by decide)),
    ((h c).2 main_arg4 (Pipeline.mem_restRefs_of main_arg4 (by decide) (by decide))).trans (V_kept m c main_arg4 (by decide)),
    ((h c).2 main_arg5 (Pipeline.mem_restRefs_of main_arg5 (by decide) (by decide))).trans (V_kept m c main_arg5 (by decide)),
    ((h c).2 main_arg6 (Pipeline.mem_restRefs_of main_arg6 (by decide) (by decide))).trans (V_kept m c main_arg6 (by decide)),
    ((h c).2 main_arg7 (Pipeline.mem_restRefs_of main_arg7 (by decide) (by decide))).trans (V_kept m c main_arg7 (by decide)),
    ((h c).2 main_arg8 (Pipeline.mem_restRefs_of main_arg8 (by decide) (by decide))).trans (V_kept m c main_arg8 (by decide)),
    ((h c).2 main_arg9 (Pipeline.mem_restRefs_of main_arg9 (by decide) (by decide))).trans (V_kept m c main_arg9 (by decide)),
    ((h c).2 main_arg10 (Pipeline.mem_restRefs_of main_arg10 (by decide) (by decide))).trans (V_kept m c main_arg10 (by decide)),
    ((h c).2 main_arg11 (Pipeline.mem_restRefs_of main_arg11 (by decide) (by decide))).trans (V_kept m c main_arg11 (by decide)),
    ((h c).2 main_arg12 (Pipeline.mem_restRefs_of main_arg12 (by decide) (by decide))).trans (V_kept m c main_arg12 (by decide)),
    ((h c).2 main_arg13 (Pipeline.mem_restRefs_of main_arg13 (by decide) (by decide))).trans (V_kept m c main_arg13 (by decide)),
    ((h c).2 main_arg14 (Pipeline.mem_restRefs_of main_arg14 (by decide) (by decide))).trans (V_kept m c main_arg14 (by decide)),
    ((h c).2 main_arg15 (Pipeline.mem_restRefs_of main_arg15 (by decide) (by decide))).trans (V_kept m c main_arg15 (by decide)),
    ((h c).2 main_arg16 (Pipeline.mem_restRefs_of main_arg16 (by decide) (by decide))).trans (V_kept m c main_arg16 (by decide)),
    ((h c).2 main_arg17 (Pipeline.mem_restRefs_of main_arg17 (by decide) (by decide))).trans (V_kept m c main_arg17 (by decide)),
    ((h c).2 main_arg18 (Pipeline.mem_restRefs_of main_arg18 (by decide) (by decide))).trans (V_kept m c main_arg18 (by decide))⟩

/-- The frame claim's post from a run to the library's frame post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => args_kept m dats hA r h c) h

/-! ## The body's accesses: every load and store is of a whole staging buffer -/

abbrev rTile : Rect S512x512 := Rect.unit (s := S512x512) ![0, 0] S512x512.size inb_S512x512_S512x512_0_0
abbrev rWeights : Rect S512x2048 := Rect.unit (s := S512x2048) ![0, 0] S512x2048.size inb_S512x2048_S512x2048_0_0
abbrev rBias : Rect S1x2048 := Rect.unit (s := S1x2048) ![0, 0] S1x2048.size inb_S1x2048_S1x2048_0_0

/-! ## What the body leaves in the two output buffers -/

/-- The new hidden state's buffer after the body: its one store, of `o · tanh c'`, over the loaded blocks. -/
def outH (x h cPrev : Vec F S512x512 .f32) (wx wh : Vec F S512x2048 .bf16) (b : Vec F S1x2048 .f32) : Vec F S512x512 .f32 :=
  View.canon [⟨rTile, k0_pay3 (View.ld x rTile) (View.ld h rTile) (View.ld wx rWeights) (View.ld wh rWeights) (View.ld b rBias) (View.ld cPrev rTile)⟩]

/-- The new cell state's buffer after the body: its one store, of `f · c + i · g`, over the loaded blocks. -/
def outC (x h cPrev : Vec F S512x512 .f32) (wx wh : Vec F S512x2048 .bf16) (b : Vec F S1x2048 .f32) : Vec F S512x512 .f32 :=
  View.canon [⟨rTile, k0_pay2 (View.ld x rTile) (View.ld h rTile) (View.ld wx rWeights) (View.ld wh rWeights) (View.ld b rBias) (View.ld cPrev rTile)⟩]

/-- One store of the whole tile covers it. -/
theorem coverTile (p0 : Vec F S512x512 .f32) (y : S512x512.Idx) :
    ∃ pc ∈ ([⟨rTile, p0⟩] : List (View.Piece (Elt F) S512x512 .f32)), y ∈ pc.1.set :=
  View.cover_of_tiled [⟨rTile, p0⟩] S512x512.size (by rfl) y

/-! ## The body's triple -/

set_option maxHeartbeats 1000000 in
/-- The kernel body on whole staging memrefs — the six inputs' at read contents, the two outputs' at anything — runs to
    the continuation with the inputs' as they were and the outputs' at `outH` and `outC` of the inputs'. The values it
    loads from the output buffers before storing into them are used by nothing. -/
theorem sound_kernel (c : Dev nD) (E : Set ℕ) (i : grid0.Coords)
    (arg1 : Memref sig .tc .vmem S512x512 .f32) (harg1 : arg1.IsWhole) (arg2 : Memref sig .tc .vmem S512x512 .f32) (harg2 : arg2.IsWhole)
    (arg3 : Memref sig .tc .vmem S512x512 .f32) (harg3 : arg3.IsWhole) (arg4 : Memref sig .tc .vmem S512x2048 .bf16) (harg4 : arg4.IsWhole)
    (arg5 : Memref sig .tc .vmem S512x2048 .bf16) (harg5 : arg5.IsWhole) (arg6 : Memref sig .tc .vmem S1x2048 .f32) (harg6 : arg6.IsWhole)
    (arg7 : Memref sig .tc .vmem S512x512 .f32) (harg7 : arg7.IsWhole) (arg8 : Memref sig .tc .vmem S512x512 .f32) (harg8 : arg8.IsWhole)
    (x h cPrev : Vec F S512x512 .f32) (wx wh : Vec F S512x2048 .bf16) (b : Vec F S1x2048 .f32) (K : PUnit → sProp 𝕄) :
    iprop(owns (c : Thread nD τ) arg1 fullShare x ∗ owns (c : Thread nD τ) arg2 fullShare h ∗ owns (c : Thread nD τ) arg3 fullShare cPrev
        ∗ owns (c : Thread nD τ) arg4 fullShare wx ∗ owns (c : Thread nD τ) arg5 fullShare wh ∗ owns (c : Thread nD τ) arg6 fullShare b
        ∗ (∃ d, owns (c : Thread nD τ) arg7 fullShare d) ∗ (∃ d, owns (c : Thread nD τ) arg8 fullShare d)
        ∗ (iprop(owns (c : Thread nD τ) arg1 fullShare x ∗ owns (c : Thread nD τ) arg2 fullShare h ∗ owns (c : Thread nD τ) arg3 fullShare cPrev
            ∗ owns (c : Thread nD τ) arg4 fullShare wx ∗ owns (c : Thread nD τ) arg5 fullShare wh ∗ owns (c : Thread nD τ) arg6 fullShare b
            ∗ owns (c : Thread nD τ) arg7 fullShare (outH x h cPrev wx wh b) ∗ owns (c : Thread nD τ) arg8 fullShare (outC x h cPrev wx wh b)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (coverTile _)
  iexists _; isplitr
  swap; · iexact H7
  ipureintro
  exact View.read_writes_eq_canon _ _ _ (coverTile _)

/-! ## The pipeline's proof data -/

/-- The proof data of the one pipeline on core `c`: the arrays as the region finds them; after the body at point `t`
    each input's buffer still at its block and the two outputs' at `outH` and `outC` of the input blocks; the invariant
    the scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outH (iblk m c 0 t) (iblk m c 1 t) (iblk m c 2 t) (iblk m c 3 t) (iblk m c 4 t) (iblk m c 5 t)
    | ⟨7, _⟩ => outC (iblk m c 0 t) (iblk m c 1 t) (iblk m c 2 t) (iblk m c 3 t) (iblk m c 4 t) (iblk m c 5 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_in5 (c : Dev nD) (t : Fin cfg0.N) : (dats m 0 c).after 5 t = iblk m c 5 t := by dsimp only [dats]
theorem after_outH (c : Dev nD) (t : Fin cfg0.N) : (dats m 0 c).after 6 t = outH (iblk m c 0 t) (iblk m c 1 t) (iblk m c 2 t) (iblk m c 3 t) (iblk m c 4 t) (iblk m c 5 t) := by dsimp only [dats]
theorem after_outC (c : Dev nD) (t : Fin cfg0.N) : (dats m 0 c).after 7 t = outC (iblk m c 0 t) (iblk m c 1 t) (iblk m c 2 t) (iblk m c 3 t) (iblk m c 4 t) (iblk m c 5 t) := by dsimp only [dats]

theorem before0 (c : Dev nD) (t : Fin cfg0.N) (d) : (dats m 0 c).before 0 t d = iblk m c 0 t :=
  before_in0 m (dats m 0 c) (A_eq m c 0) (after_in0 m c) t d
theorem before1 (c : Dev nD) (t : Fin cfg0.N) (d) : (dats m 0 c).before 1 t d = iblk m c 1 t :=
  before_in1 m (dats m 0 c) (A_eq m c 1) (after_in1 m c) t d
theorem before2 (c : Dev nD) (t : Fin cfg0.N) (d) : (dats m 0 c).before 2 t d = iblk m c 2 t :=
  before_in2 m (dats m 0 c) (A_eq m c 2) (after_in2 m c) t d
theorem before3 (c : Dev nD) (t : Fin cfg0.N) (d) : (dats m 0 c).before 3 t d = iblk m c 3 t :=
  before_in3 m (dats m 0 c) (A_eq m c 3) (after_in3 m c) t d
theorem before4 (c : Dev nD) (t : Fin cfg0.N) (d) : (dats m 0 c).before 4 t d = iblk m c 4 t :=
  before_in4 m (dats m 0 c) (A_eq m c 4) (after_in4 m c) t d
theorem before5 (c : Dev nD) (t : Fin cfg0.N) (d) : (dats m 0 c).before 5 t d = iblk m c 5 t :=
  before_in5 m (dats m 0 c) (A_eq m c 5) (after_in5 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' memrefs hold their blocks, so `sound_kernel` applies; the invariant and the core's
    owed signals pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after_in0, after_in1, after_in2, after_in3, after_in4, after_in5, after_outH, after_outC]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and in every final state each
    array of the pipeline holds what the library computes from the proof data — an input its entry contents, an output
    those overwritten by what the body left at each write-back — and every other unscoped buffer its entry contents. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: every argument array ends as it began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  frame_of m ρ (dats m) (A_eq m) (run_main m ρ)

end Cert.KernelIdeal.Cell

end
-- ==== Proof.CellSpec.lean ====
/-
  The LSTM cell as one function of its arrays, entry by entry, on the extended reals.

  For batch row `r` and hidden unit `j`, each of the four gates has a linear part

      z(r, j) = (Σₖ x(r,k) · Wx(j,k) + bx(j)) + Σₖ h(r,k) · Wh(j,k) + bh(j),

  the weight matrices being stored unit-major (row `j` of `Wx` holds unit `j`'s input weights). With `σ` the
  logistic function the cell is

      c'(r, j) = σ(z_f) · c(r, j) + σ(z_i) · tanh(z_g),        h'(r, j) = σ(z_o) · tanh(c'(r, j)).

  Both programs compute exactly this. They differ in how the four gates' weights are laid side by side, in a change
  of float format that is the identity here, in the grouping of the sum `z` (the two bias terms added to each other
  first, or one after each product) and in how `σ` is spelt (one operation, or `1 / (1 + e^(-z))`); addition of
  extended reals is associative and commutative, and `σ` is defined as that quotient, so neither grouping nor
  spelling changes a value, at infinite entries either.
-/
import Idealize.ShloMosaic.PureOps.Ideal
import Idealize.ShloMosaic.Lib.ValueIdx

noncomputable section

namespace Cert.Cell

open Idealize.ShloMosaic Idealize.ShloMosaic.ValueIdx

/-- A batch of 8192 rows of 512 features: the shape of `x`, `h`, `c` and of the two results. -/
abbrev Rows : Shape := ⟨2, ![8192, 512]⟩
/-- One gate's weight matrix, unit-major. -/
abbrev Weights : Shape := ⟨2, ![512, 512]⟩
/-- One gate's bias vector. -/
abbrev Units : Shape := ⟨1, ![512]⟩

/-- One of four, by position: the gates are laid out in the order forget, candidate, input, output. -/
def pick4 {α : Type} (u0 u1 u2 u3 : α) : Fin 4 → α
  | ⟨0, _⟩ => u0
  | ⟨1, _⟩ => u1
  | ⟨2, _⟩ => u2
  | ⟨3, _⟩ => u3

/-- Unit `j` of gate `g` among the four gates' 512 units laid side by side. -/
def col (g : Fin 4) (j : Fin 512) : Fin 2048 := ⟨512 * g.val + j.val, by have := g.isLt; have := j.isLt; omega⟩

theorem col_val (g : Fin 4) (j : Fin 512) : (col g j).val = 512 * g.val + j.val := rfl

/-- The pattern of `1.0` denotes `1`. -/
theorem one_f32 : Ideal.ofBits .f32 0x3F800000#32 = 1 := by
  simp [Ideal.ofBits, Ideal.ieee, -EReal.coe_mul]; norm_num

/-- A gate's linear part at row `r`, unit `j`: the input product plus its bias, then the hidden product, then its bias. -/
def gate (x h : Rows.Idx → EReal) (wx wh : Weights.Idx → EReal) (bx bh : Units.Idx → EReal) (r : Fin 8192) (j : Fin 512) : EReal :=
  (∑ k : Fin 512, x (ix2 r k) * wx (ix2 j k)) + bx (ix1 j) + (∑ k : Fin 512, h (ix2 r k) * wh (ix2 j k)) + bh (ix1 j)

/-- The same sum with the two products added first and the two biases added to each other first. -/
theorem gate_regroup (x h : Rows.Idx → EReal) (wx wh : Weights.Idx → EReal) (bx bh : Units.Idx → EReal) (r : Fin 8192) (j : Fin 512) :
    (∑ k : Fin 512, x (ix2 r k) * wx (ix2 j k)) + (∑ k : Fin 512, h (ix2 r k) * wh (ix2 j k)) + (bx (ix1 j) + bh (ix1 j))
      = gate x h wx wh bx bh r j := by
  unfold gate
  abel

/-- The cell's nineteen arrays. -/
structure Arrays where
  x : Rows.Idx → EReal
  h : Rows.Idx → EReal
  c : Rows.Idx → EReal
  wfx : Weights.Idx → EReal
  bfx : Units.Idx → EReal
  wfh : Weights.Idx → EReal
  bfh : Units.Idx → EReal
  wix : Weights.Idx → EReal
  bix : Units.Idx → EReal
  wih : Weights.Idx → EReal
  bih : Units.Idx → EReal
  wgx : Weights.Idx → EReal
  bgx : Units.Idx → EReal
  wgh : Weights.Idx → EReal
  bgh : Units.Idx → EReal
  wox : Weights.Idx → EReal
  box : Units.Idx → EReal
  woh : Weights.Idx → EReal
  boh : Units.Idx → EReal

/-- The forget, input, candidate and output gates' linear parts. -/
def Arrays.zf (a : Arrays) (r : Fin 8192) (j : Fin 512) : EReal := gate a.x a.h a.wfx a.wfh a.bfx a.bfh r j
def Arrays.zi (a : Arrays) (r : Fin 8192) (j : Fin 512) : EReal := gate a.x a.h a.wix a.wih a.bix a.bih r j
def Arrays.zg (a : Arrays) (r : Fin 8192) (j : Fin 512) : EReal := gate a.x a.h a.wgx a.wgh a.bgx a.bgh r j
def Arrays.zo (a : Arrays) (r : Fin 8192) (j : Fin 512) : EReal := gate a.x a.h a.wox a.woh a.box a.boh r j

/-- The new cell state at row `r`, unit `j`. -/
def newC (a : Arrays) (r : Fin 8192) (j : Fin 512) : EReal :=
  Ideal.logistic (a.zf r j) * a.c (ix2 r j) + Ideal.logistic (a.zi r j) * Ideal.tanh (a.zg r j)

/-- The new hidden state at row `r`, unit `j`. -/
def newH (a : Arrays) (r : Fin 8192) (j : Fin 512) : EReal :=
  Ideal.logistic (a.zo r j) * Ideal.tanh (newC a r j)

/-- The new cell state, as an array. -/
def cellC (a : Arrays) : Rows.Idx → EReal := fun idx => newC a (idx 0) (idx 1)
/-- The new hidden state, as an array. -/
def cellH (a : Arrays) : Rows.Idx → EReal := fun idx => newH a (idx 0) (idx 1)

theorem cellC_ix (a : Arrays) (r : Fin 8192) (j : Fin 512) : cellC a (ix2 r j) = newC a r j := rfl
theorem cellH_ix (a : Arrays) (r : Fin 8192) (j : Fin 512) : cellH a (ix2 r j) = newH a r j := rfl

end Cert.Cell

end
-- ==== Proof.LibDot.lean ====
/-
  A plain matrix product read at an entry, at the ideal values.

  Every product in the network is "rows by columns": an `M × K` array against a `K × N` array, contracting the one
  shared axis, no batch axis. At the ideal values both the kernel's product into a zero accumulator and the host's
  product are, at entry `(p, q)`, the sum over `k` of `lhs (p, k) · rhs (k, q)`: no rounding and no order of
  accumulation is left in it. The two lemmas say so once, for all sizes; a printed dimension record of this kind is
  `DotDims.plain M K N` up to its well-formedness proof.
-/
import Idealize.ShloMosaic.PureOps.Ideal.Laws
import Idealize.ShloMosaic.Lib.ValueIdx

noncomputable section

namespace Cert.GNN

open Idealize.ShloMosaic Idealize.ShloMosaic.ValueIdx

variable {M K N : ℕ}

theorem plain_lhs0 (i : (⟨2, ![M, N]⟩ : Shape).Idx) (κ : (DotDims.plain M K N).contr.Idx) :
    ((DotDims.plain M K N).lhsIdx i κ 0).val = (i 0).val := rfl
theorem plain_lhs1 (i : (⟨2, ![M, N]⟩ : Shape).Idx) (κ : (DotDims.plain M K N).contr.Idx) :
    ((DotDims.plain M K N).lhsIdx i κ 1).val = (κ ⟨0, Nat.one_pos⟩).val := rfl
theorem plain_rhs0 (i : (⟨2, ![M, N]⟩ : Shape).Idx) (κ : (DotDims.plain M K N).contr.Idx) :
    ((DotDims.plain M K N).rhsIdx i κ 0).val = (κ ⟨0, Nat.one_pos⟩).val := rfl
theorem plain_rhs1 (i : (⟨2, ![M, N]⟩ : Shape).Idx) (κ : (DotDims.plain M K N).contr.Idx) :
    ((DotDims.plain M K N).rhsIdx i κ 1).val = (i 1).val := rfl

/-- The sum over the contraction index of a plain product, re-indexed by `k : Fin K`. -/
theorem plain_sum {φ₁ φ₂ : FTy} (lhs : FVec Ideal ⟨2, ![M, K]⟩ φ₁) (rhs : FVec Ideal ⟨2, ![K, N]⟩ φ₂) (p : Fin M) (q : Fin N) :
    (∑ κ : (DotDims.plain M K N).contr.Idx,
        lhs ((DotDims.plain M K N).lhsIdx (ix2 p q) κ) * rhs ((DotDims.plain M K N).rhsIdx (ix2 p q) κ))
      = ∑ k : Fin K, lhs (ix2 p k) * rhs (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

/-- A kernel's plain product into the zero accumulator, read at entry `(p, q)`. -/
theorem matmul_plain_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's plain product, read at entry `(p, q)`. -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

end Cert.GNN

end
-- ==== Proof.CellBlock.lean ====
/-
  The kernel body's two stored values on one batch tile, entry by entry.

  On a tile the body forms, for every row `p` of the tile and every column `n` of the four gates laid side by side,

      pre(p, n) = (Σₖ xt(p,k) · wx(k,n) + Σₖ ht(p,k) · wh(k,n)) + b(0,n)

  (two products into zero accumulators, a change of float format that is the identity, a row vector repeated down the
  rows), cuts the four gates out as column ranges `[512 g, 512 g + 512)`, and stores

      c' = σ(pre_f) · ct + σ(pre_i) · tanh(pre_g),      h' = σ(pre_o) · tanh(c').

  If the tile's rows are rows `r₀ + p` of the batch, the laid-out weights hold gate `g`'s matrix transposed in its
  column range, and the bias row holds the sum of the gate's two biases there, these are the cell's `c'` and `h'` at
  row `r₀ + p`: the only step beyond reading indices is regrouping the sum.
-/
import proofs.«144557_j52338471469772_1_alg».proof.Proof.Gen.KernelIdeal.Skeleton
import proofs.«144557_j52338471469772_1_alg».proof.Proof.CellSpec
import proofs.«144557_j52338471469772_1_alg».proof.Proof.LibDot
import Idealize.ShloMosaic.PureOps.Ideal.Laws
import Idealize.ShloMosaic.Lib.ValueIdx
import Idealize.ShloMosaic.Lib.Pipeline.Value

noncomputable section

namespace Cert.KernelIdeal.Block

open Cert.KernelIdeal Cert.KernelIdeal.Gen Cert.Cell
open Idealize.ShloMosaic Idealize.ShloMosaic.ValueIdx

variable (xt ht ct : Vec Ideal S512x512 .f32) (wx wh : Vec Ideal S512x2048 .bf16) (b : Vec Ideal S1x2048 .f32)

/-- The body's product of a tile with a laid-out weight matrix, into a zero accumulator, at `(p, n)`. -/
theorem product_at (u : Vec Ideal S512x512 .f32) (w : Vec Ideal S512x2048 .bf16) (p : Fin 512) (n : Fin 2048) :
    matmul (F := Ideal) dot_S512x512_S512x2048_S512x2048_1_0_0_1_n_n none (truncf .bf16 u bitsLt_bf16_f32 : FVec Ideal S512x512 .bf16)
        (shapeCast S512x2048 w shapeCasts_S512x2048_S512x2048 : FVec Ideal S512x2048 .bf16) (constant S512x2048 .f32 0x00000000#32) (ix2 p n)
      = ∑ k : Fin 512, u (ix2 p k) * w (ix2 k n) := by
  rw [shapeCast_self]
  exact Cert.GNN.matmul_plain_zero_apply (M := 512) (K := 512) (N := 2048) none (truncf .bf16 u bitsLt_bf16_f32 : FVec Ideal S512x512 .bf16) (w : FVec Ideal S512x2048 .bf16) p n

/-- The bias row repeated down the rows, at `(p, n)`. -/
theorem bias_at (p : Fin 512) (n : Fin 2048) :
    broadcastTo S512x2048 (shapeCast S1x2048 b shapeCasts_S1x2048_S1x2048) broadcasts_S1x2048_S512x2048 (ix2 p n) = b (ix2 (0 : Fin 1) n) := by
  rw [shapeCast_self]
  refine broadcastTo_apply b broadcasts_S1x2048_S512x2048 (ix2 p n) (ix2 (0 : Fin 1) n) fun a => ?_
  match a with
  | ⟨0, _⟩ => exact (if_pos rfl).symm
  | ⟨1, _⟩ => exact (if_neg (show ¬ (2048 : ℕ) = 1 by decide)).symm

/-- The four gates' linear parts, laid side by side, at `(p, n)`. -/
theorem pre_at (p : Fin 512) (n : Fin 2048) :
    k0_pay1 xt ht wx wh b (ix2 p n)
      = (∑ k : Fin 512, xt (ix2 p k) * wx (ix2 k n)) + (∑ k : Fin 512, ht (ix2 p k) * wh (ix2 k n)) + b (ix2 (0 : Fin 1) n) := by
  unfold k0_pay1
  rw [addf_apply, addf_apply, product_at, product_at, bias_at]

/-- Gate `g`'s column range cut out of the four, at `(p, q)`. -/
theorem gate_cut (v : FVec Ideal S512x2048 .f32) (g : Fin 4) (off : Fin 2 → Nat) (hoff : off = ![0, 512 * g.val])
    (h : S512x2048.Slices off S512x512) (p q : Fin 512) :
    extractStridedSlice S512x512 off v h (ix2 p q) = v (ix2 p (col g q)) := by
  subst hoff
  refine extractStridedSlice_apply _ v h (ix2 p q) (ix2 p (col g q)) fun a => ?_
  match a with
  | ⟨0, _⟩ => exact (Nat.zero_add _).symm
  | ⟨1, _⟩ => rfl

/-- The stored cell state at `(p, q)` of the tile. -/
theorem payC_at (p q : Fin 512) :
    k0_pay2 xt ht wx wh b ct (ix2 p q)
      = Ideal.logistic (k0_pay1 xt ht wx wh b (ix2 p (col 0 q))) * ct (ix2 p q)
        + Ideal.logistic (k0_pay1 xt ht wx wh b (ix2 p (col 2 q))) * Ideal.tanh (k0_pay1 xt ht wx wh b (ix2 p (col 1 q))) := by
  unfold k0_pay2
  rw [addf_apply, mulf_apply, mulf_apply]
  show Ideal.logistic (extractStridedSlice S512x512 ![0, 0] (k0_pay1 xt ht wx wh b) slices_S512x2048_o0_0_S512x512 (ix2 p q)) * ct (ix2 p q)
      + Ideal.logistic (extractStridedSlice S512x512 ![0, 1024] (k0_pay1 xt ht wx wh b) slices_S512x2048_o0_1024_S512x512 (ix2 p q))
        * Ideal.tanh (extractStridedSlice S512x512 ![0, 512] (k0_pay1 xt ht wx wh b) slices_S512x2048_o0_512_S512x512 (ix2 p q)) = _
  rw [gate_cut (k0_pay1 xt ht wx wh b) 0 ![0, 0] rfl slices_S512x2048_o0_0_S512x512 p q,
    gate_cut (k0_pay1 xt ht wx wh b) 2 ![0, 1024] rfl slices_S512x2048_o0_1024_S512x512 p q,
    gate_cut (k0_pay1 xt ht wx wh b) 1 ![0, 512] rfl slices_S512x2048_o0_512_S512x512 p q]

/-- The stored hidden state at `(p, q)` of the tile. -/
theorem payH_at (p q : Fin 512) :
    k0_pay3 xt ht wx wh b ct (ix2 p q)
      = Ideal.logistic (k0_pay1 xt ht wx wh b (ix2 p (col 3 q))) * Ideal.tanh (k0_pay2 xt ht wx wh b ct (ix2 p q)) := by
  unfold k0_pay3
  rw [mulf_apply]
  show Ideal.logistic (extractStridedSlice S512x512 ![0, 1536] (k0_pay1 xt ht wx wh b) slices_S512x2048_o0_1536_S512x512 (ix2 p q))
      * Ideal.tanh (k0_pay2 xt ht wx wh b ct (ix2 p q)) = _
  rw [gate_cut (k0_pay1 xt ht wx wh b) 3 ![0, 1536] rfl slices_S512x2048_o0_1536_S512x512 p q]

/-! ## On a tile of the batch -/

section Tile
variable (A : Arrays) (r₀ : ℕ) (hr₀ : r₀ + 512 ≤ 8192)

/-- Row `p` of the tile as a row of the batch. -/
def row (p : Fin 512) : Fin 8192 := ⟨r₀ + p.val, by have := p.isLt; omega⟩

variable (hx : ∀ (p k : Fin 512), xt (ix2 p k) = A.x (ix2 (row r₀ hr₀ p) k))
  (hh : ∀ (p k : Fin 512), ht (ix2 p k) = A.h (ix2 (row r₀ hr₀ p) k))
  (hc : ∀ (p q : Fin 512), ct (ix2 p q) = A.c (ix2 (row r₀ hr₀ p) q))
  (hwx : ∀ (k : Fin 512) (g : Fin 4) (j : Fin 512), wx (ix2 k (col g j)) = pick4 A.wfx A.wgx A.wix A.wox g (ix2 j k))
  (hwh : ∀ (k : Fin 512) (g : Fin 4) (j : Fin 512), wh (ix2 k (col g j)) = pick4 A.wfh A.wgh A.wih A.woh g (ix2 j k))
  (hbias : ∀ (g : Fin 4) (j : Fin 512), b (ix2 (0 : Fin 1) (col g j)) = pick4 A.bfx A.bgx A.bix A.box g (ix1 j) + pick4 A.bfh A.bgh A.bih A.boh g (ix1 j))
include hx hh hwx hwh hbias

/-- Gate `g`'s column range holds gate `g`'s linear part. -/
theorem pre_gate (g : Fin 4) (p q : Fin 512) :
    k0_pay1 xt ht wx wh b (ix2 p (col g q))
      = gate A.x A.h (pick4 A.wfx A.wgx A.wix A.wox g) (pick4 A.wfh A.wgh A.wih A.woh g) (pick4 A.bfx A.bgx A.bix A.box g)
          (pick4 A.bfh A.bgh A.bih A.boh g) (row r₀ hr₀ p) q := by
  rw [pre_at, hbias]
  simp only [hx, hh, hwx, hwh]
  exact gate_regroup _ _ _ _ _ _ _ _

include hc
theorem tileC (p q : Fin 512) : k0_pay2 xt ht wx wh b ct (ix2 p q) = newC A (row r₀ hr₀ p) q := by
  rw [payC_at, pre_gate xt ht wx wh b A r₀ hr₀ hx hh hwx hwh hbias 0, pre_gate xt ht wx wh b A r₀ hr₀ hx hh hwx hwh hbias 1,
    pre_gate xt ht wx wh b A r₀ hr₀ hx hh hwx hwh hbias 2, hc]
  rfl

theorem tileH (p q : Fin 512) : k0_pay3 xt ht wx wh b ct (ix2 p q) = newH A (row r₀ hr₀ p) q := by
  rw [payH_at, pre_gate xt ht wx wh b A r₀ hr₀ hx hh hwx hwh hbias 3, tileC xt ht ct wx wh b A r₀ hr₀ hx hh hc hwx hwh hbias]
  rfl

end Tile

end Cert.KernelIdeal.Block

end
-- ==== Proof.CellArrays.lean ====
/-
  The idealized program's two result arrays after the run are the cell function of its argument arrays.

  The region finds the laid-out weights and the bias row as the host operations left them: gate `g`'s matrix
  transposed in columns `[512 g, 512 g + 512)`, the sum of gate `g`'s two biases in the same range of the row. Grid
  point `t` stages rows `[512 t, 512 t + 512)` of x, h and c and writes back the same rows of the two results, so
  what it writes back is the cell's c' and h' on those rows; the sixteen tiles cover the batch.
-/
import proofs.«144557_j52338471469772_1_alg».proof.Proof.CellFrameIdeal
import proofs.«144557_j52338471469772_1_alg».proof.Proof.CellBlock
import Idealize.ShloMosaic.Lib.StableHlo.Run
import Idealize.ShloMosaic.Lib.ValueLayout

set_option maxRecDepth 16384

noncomputable section

namespace Cert.KernelIdeal.CellValue

open Cert.KernelIdeal Cert.KernelIdeal.Gen Cert.KernelIdeal.Cell Cert.KernelIdeal.Block Cert.Cell
open Idealize.ShloMosaic Idealize.ShloMosaic.TcCoe Idealize.SL.Sem Idealize.ShloMosaic.StableHlo Idealize.ShloMosaic.ValueIdx
open Idealize.ShloMosaic.Pipeline (Dat)

variable (m : (ℓ : Loc nD τ sig) → Buf (Elt Ideal) ℓ) (ρ : Dev nD → PrngReg)

/-- The cell's arrays, read off the launch memory on device `c`. -/
abbrev arrays (c : Dev nD) : Arrays :=
  ⟨(m ((c.tc : Thread nD τ).loc main_arg0)), (m ((c.tc : Thread nD τ).loc main_arg1)), (m ((c.tc : Thread nD τ).loc main_arg2)), (m ((c.tc : Thread nD τ).loc main_arg3)), (m ((c.tc : Thread nD τ).loc main_arg4)), (m ((c.tc : Thread nD τ).loc main_arg5)), (m ((c.tc : Thread nD τ).loc main_arg6)), (m ((c.tc : Thread nD τ).loc main_arg7)), (m ((c.tc : Thread nD τ).loc main_arg8)), (m ((c.tc : Thread nD τ).loc main_arg9)), (m ((c.tc : Thread nD τ).loc main_arg10)), (m ((c.tc : Thread nD τ).loc main_arg11)), (m ((c.tc : Thread nD τ).loc main_arg12)), (m ((c.tc : Thread nD τ).loc main_arg13)), (m ((c.tc : Thread nD τ).loc main_arg14)), (m ((c.tc : Thread nD τ).loc main_arg15)), (m ((c.tc : Thread nD τ).loc main_arg16)), (m ((c.tc : Thread nD τ).loc main_arg17)), (m ((c.tc : Thread nD τ).loc main_arg18))⟩

/-! ## What the region finds in the three windows the host operations compute -/

abbrev tr (w : FVec Ideal S512x512 .f32) : FVec Ideal S512x512 .f32 :=
  transpose S512x512 [1, 0] w transposes_S512x512_S512x512_1_0

/-- Four matrices transposed, laid side by side, narrowed. -/
abbrev laid (w0 w1 w2 w3 : FVec Ideal S512x512 .f32) : FVec Ideal S512x2048 .bf16 :=
  truncf (F := Ideal) .bf16 (concatenate S512x2048 1 [⟨S512x512, tr w0⟩, ⟨S512x512, tr w1⟩, ⟨S512x512, tr w2⟩, ⟨S512x512, tr w3⟩]
    concatenates_S512x512_S512x512_S512x512_S512x512_S512x2048_d1 : FVec Ideal S512x2048 .f32) bitsLt_bf16_f32

/-- Four vectors laid end to end, as one row. -/
abbrev rowOf (b0 b1 b2 b3 : FVec Ideal S512 .f32) : FVec Ideal S1x2048 .f32 :=
  shapeCast S1x2048 (concatenate S2048 0 [⟨S512, b0⟩, ⟨S512, b1⟩, ⟨S512, b2⟩, ⟨S512, b3⟩]
    concatenates_S512_S512_S512_S512_S2048_d0 : FVec Ideal S2048 .f32) shapeCasts_S2048_S1x2048

theorem wx_entry (c : Dev nD) : (V m c main_v16 : FVec Ideal S512x2048 .bf16) = laid (m ((c.tc : Thread nD τ).loc main_arg3)) (m ((c.tc : Thread nD τ).loc main_arg11)) (m ((c.tc : Thread nD τ).loc main_arg7)) (m ((c.tc : Thread nD τ).loc main_arg15)) := by
  dsimp only [V, hostOps0]
  after_results_simp <;> rfl

theorem wh_entry (c : Dev nD) : (V m c main_v17 : FVec Ideal S512x2048 .bf16) = laid (m ((c.tc : Thread nD τ).loc main_arg5)) (m ((c.tc : Thread nD τ).loc main_arg13)) (m ((c.tc : Thread nD τ).loc main_arg9)) (m ((c.tc : Thread nD τ).loc main_arg17)) := by
  dsimp only [V, hostOps0]
  after_results_simp <;> rfl

theorem b_entry (c : Dev nD) : (V m c main_v15 : FVec Ideal S1x2048 .f32) =
    rowOf (addf (F := Ideal) (m ((c.tc : Thread nD τ).loc main_arg4)) (m ((c.tc : Thread nD τ).loc main_arg6))) (addf (F := Ideal) (m ((c.tc : Thread nD τ).loc main_arg12)) (m ((c.tc : Thread nD τ).loc main_arg14)))
      (addf (F := Ideal) (m ((c.tc : Thread nD τ).loc main_arg8)) (m ((c.tc : Thread nD τ).loc main_arg10))) (addf (F := Ideal) (m ((c.tc : Thread nD τ).loc main_arg16)) (m ((c.tc : Thread nD τ).loc main_arg18))) := by
  dsimp only [V, hostOps0]
  after_results_simp <;> rfl

/-- Entry `(k, 512 g + j)` of the laid-out matrices is matrix `g`'s `(j, k)`. -/
theorem laid_at (w0 w1 w2 w3 : FVec Ideal S512x512 .f32) (k : Fin 512) (g : Fin 4) (j : Fin 512) :
    laid w0 w1 w2 w3 (ix2 k (col g j)) = pick4 w0 w1 w2 w3 g (ix2 j k) := by
  show concatenate S512x2048 1 [⟨S512x512, tr w0⟩, ⟨S512x512, tr w1⟩, ⟨S512x512, tr w2⟩, ⟨S512x512, tr w3⟩]
    concatenates_S512x512_S512x512_S512x512_S512x512_S512x2048_d1 (ix2 k (col g j)) = _
  have hi : ∀ b : Fin S512x512.rank, b.cast (rfl : S512x512.rank = S512x2048.rank) ≠ (1 : Fin S512x2048.rank) →
      ((ix2 k j : S512x512.Idx) b).val = ((ix2 k (col g j) : S512x2048.Idx) (b.cast rfl)).val := fun b hb => by
    match b with
    | ⟨0, _⟩ => rfl
    | ⟨1, _⟩ => exact absurd rfl hb
  match g with
  | ⟨0, _⟩ => exact (concatenate_apply_piece (1 : Fin S512x2048.rank) _ _ (ix2 k (col _ j)) 0 (by simp) S512x512 (tr w0) rfl rfl 0 rfl (ix2 k j) hi
      (by show 0 + j.val = 512 * 0 + j.val; omega)).trans (transpose_ix2_apply w0 _ k j)
  | ⟨1, _⟩ => exact (concatenate_apply_piece (1 : Fin S512x2048.rank) _ _ (ix2 k (col _ j)) 1 (by simp) S512x512 (tr w1) rfl rfl 512 rfl (ix2 k j) hi
      (by show 512 + j.val = 512 * 1 + j.val; omega)).trans (transpose_ix2_apply w1 _ k j)
  | ⟨2, _⟩ => exact (concatenate_apply_piece (1 : Fin S512x2048.rank) _ _ (ix2 k (col _ j)) 2 (by simp) S512x512 (tr w2) rfl rfl 1024 rfl (ix2 k j) hi
      (by show 1024 + j.val = 512 * 2 + j.val; omega)).trans (transpose_ix2_apply w2 _ k j)
  | ⟨3, _⟩ => exact (concatenate_apply_piece (1 : Fin S512x2048.rank) _ _ (ix2 k (col _ j)) 3 (by simp) S512x512 (tr w3) rfl rfl 1536 rfl (ix2 k j) hi
      (by show 1536 + j.val = 512 * 3 + j.val; omega)).trans (transpose_ix2_apply w3 _ k j)

/-- Entry `(0, 512 g + j)` of the row is vector `g`'s entry `j`. -/
theorem rowOf_at (b0 b1 b2 b3 : FVec Ideal S512 .f32) (g : Fin 4) (j : Fin 512) :
    rowOf b0 b1 b2 b3 (ix2 (0 : Fin 1) (col g j)) = pick4 b0 b1 b2 b3 g (ix1 j) := by
  refine (shapeCast_apply _ shapeCasts_S2048_S1x2048 (ix2 (0 : Fin 1) (col g j)) (ix1 (col g j)) ?_).trans ?_
  · rw [Shape.rowMajor_val_one, Shape.rowMajor_val_two]
    show (col g j).val = 0 * 2048 + (col g j).val
    omega
  have hi : ∀ b : Fin S512.rank, b.cast (rfl : S512.rank = S2048.rank) ≠ (0 : Fin S2048.rank) →
      ((ix1 j : S512.Idx) b).val = ((ix1 (col g j) : S2048.Idx) (b.cast rfl)).val := fun b hb => by
    match b with
    | ⟨0, _⟩ => exact absurd rfl hb
    | ⟨_ + 1, h⟩ => exact absurd h (Nat.not_lt.2 (Nat.le_add_left _ _))
  match g with
  | ⟨0, _⟩ => exact concatenate_apply_piece (0 : Fin S2048.rank) _ _ (ix1 (col _ j)) 0 (by simp) S512 b0 rfl rfl 0 rfl (ix1 j) hi (by show 0 + j.val = 512 * 0 + j.val; omega)
  | ⟨1, _⟩ => exact concatenate_apply_piece (0 : Fin S2048.rank) _ _ (ix1 (col _ j)) 1 (by simp) S512 b1 rfl rfl 512 rfl (ix1 j) hi (by show 512 + j.val = 512 * 1 + j.val; omega)
  | ⟨2, _⟩ => exact concatenate_apply_piece (0 : Fin S2048.rank) _ _ (ix1 (col _ j)) 2 (by simp) S512 b2 rfl rfl 1024 rfl (ix1 j) hi (by show 1024 + j.val = 512 * 2 + j.val; omega)
  | ⟨3, _⟩ => exact concatenate_apply_piece (0 : Fin S2048.rank) _ _ (ix1 (col _ j)) 3 (by simp) S512 b3 rfl rfl 1536 rfl (ix1 j) hi (by show 1536 + j.val = 512 * 3 + j.val; omega)

/-! ## The windows' blocks as entries of the arguments -/

/-- The printed index maps, decided over the sixteen points: the batch windows are at block row `t`, the weights and
    the bias row at their one block. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0) :=
  (by decide +kernel : ∀ t : Fin grid0.N, _)

/-- Tile `t` lies inside the batch. -/
theorem tile_le (t : Fin cfg0.N) : t.val * 512 + 512 ≤ 8192 := by
  have h : t.val < 16 := N_0 ▸ t.isLt
  omega

theorem blk_x (c : Dev nD) (t : Fin cfg0.N) (p k : Fin 512) :
    iblk m c 0 t (ix2 p k) = (arrays m c).x (ix2 (row (t.val * 512) (tile_le t) p) k) := by
  show V m c main_arg0 (((cfg0.win 0).blk t).view.emb (ix2 p k)) = _
  rw [V_kept m c main_arg0 (by decide)]
  obtain ⟨⟨e0, e1⟩, -⟩ := idx_facts t
  refine congrArg _ (funext fun a => Fin.ext ?_)
  match a with
  | ⟨0, _⟩ => show win0_0.index t (0 : Fin 2) * 512 + 1 * p.val = t.val * 512 + p.val; omega
  | ⟨1, _⟩ => show win0_0.index t (1 : Fin 2) * 512 + 1 * k.val = k.val; omega

theorem blk_h (c : Dev nD) (t : Fin cfg0.N) (p k : Fin 512) :
    iblk m c 1 t (ix2 p k) = (arrays m c).h (ix2 (row (t.val * 512) (tile_le t) p) k) := by
  show V m c main_arg1 (((cfg0.win 1).blk t).view.emb (ix2 p k)) = _
  rw [V_kept m c main_arg1 (by decide)]
  obtain ⟨-, ⟨e0, e1⟩, -⟩ := idx_facts t
  refine congrArg _ (funext fun a => Fin.ext ?_)
  match a with
  | ⟨0, _⟩ => show win0_1.index t (0 : Fin 2) * 512 + 1 * p.val = t.val * 512 + p.val; omega
  | ⟨1, _⟩ => show win0_1.index t (1 : Fin 2) * 512 + 1 * k.val = k.val; omega

theorem blk_c (c : Dev nD) (t : Fin cfg0.N) (p q : Fin 512) :
    iblk m c 2 t (ix2 p q) = (arrays m c).c (ix2 (row (t.val * 512) (tile_le t) p) q) := by
  show V m c main_arg2 (((cfg0.win 2).blk t).view.emb (ix2 p q)) = _
  rw [V_kept m c main_arg2 (by decide)]
  obtain ⟨-, -, ⟨e0, e1⟩, -⟩ := idx_facts t
  refine congrArg _ (funext fun a => Fin.ext ?_)
  match a with
  | ⟨0, _⟩ => show win0_2.index t (0 : Fin 2) * 512 + 1 * p.val = t.val * 512 + p.val; omega
  | ⟨1, _⟩ => show win0_2.index t (1 : Fin 2) * 512 + 1 * q.val = q.val; omega

theorem blk_wx (c : Dev nD) (t : Fin cfg0.N) (k : Fin 512) (g : Fin 4) (j : Fin 512) :
    iblk m c 3 t (ix2 k (col g j)) = pick4 (arrays m c).wfx (arrays m c).wgx (arrays m c).wix (arrays m c).wox g (ix2 j k) := by
  show V m c main_v16 (((cfg0.win 3).blk t).view.emb (ix2 k (col g j))) = _
  obtain ⟨-, -, -, ⟨e0, e1⟩, -⟩ := idx_facts t
  have he : ((cfg0.win 3).blk t).view.emb (ix2 k (col g j)) = (ix2 k (col g j) : S512x2048.Idx) := funext fun a => Fin.ext (by
    match a with
    | ⟨0, _⟩ => show win0_3.index t (0 : Fin 2) * 512 + 1 * k.val = k.val; omega
    | ⟨1, _⟩ => show win0_3.index t (1 : Fin 2) * 2048 + 1 * (col g j).val = (col g j).val; omega)
  rw [he, wx_entry]
  exact laid_at _ _ _ _ k g j

theorem blk_wh (c : Dev nD) (t : Fin cfg0.N) (k : Fin 512) (g : Fin 4) (j : Fin 512) :
    iblk m c 4 t (ix2 k (col g j)) = pick4 (arrays m c).wfh (arrays m c).wgh (arrays m c).wih (arrays m c).woh g (ix2 j k) := by
  show V m c main_v17 (((cfg0.win 4).blk t).view.emb (ix2 k (col g j))) = _
  obtain ⟨-, -, -, -, ⟨e0, e1⟩, -⟩ := idx_facts t
  have he : ((cfg0.win 4).blk t).view.emb (ix2 k (col g j)) = (ix2 k (col g j) : S512x2048.Idx) := funext fun a => Fin.ext (by
    match a with
    | ⟨0, _⟩ => show win0_4.index t (0 : Fin 2) * 512 + 1 * k.val = k.val; omega
    | ⟨1, _⟩ => show win0_4.index t (1 : Fin 2) * 2048 + 1 * (col g j).val = (col g j).val; omega)
  rw [he, wh_entry]
  exact laid_at _ _ _ _ k g j

theorem blk_b (c : Dev nD) (t : Fin cfg0.N) (g : Fin 4) (j : Fin 512) :
    iblk m c 5 t (ix2 (0 : Fin 1) (col g j))
      = pick4 (arrays m c).bfx (arrays m c).bgx (arrays m c).bix (arrays m c).box g (ix1 j)
        + pick4 (arrays m c).bfh (arrays m c).bgh (arrays m c).bih (arrays m c).boh g (ix1 j) := by
  show V m c main_v15 (((cfg0.win 5).blk t).view.emb (ix2 (0 : Fin 1) (col g j))) = _
  obtain ⟨-, -, -, -, -, ⟨e0, e1⟩, -⟩ := idx_facts t
  have he : ((cfg0.win 5).blk t).view.emb (ix2 (0 : Fin 1) (col g j)) = (ix2 (0 : Fin 1) (col g j) : S1x2048.Idx) := funext fun a => Fin.ext (by
    match a with
    | ⟨0, _⟩ => show win0_5.index t (0 : Fin 2) * 1 + 1 * 0 = 0; omega
    | ⟨1, _⟩ => show win0_5.index t (1 : Fin 2) * 2048 + 1 * (col g j).val = (col g j).val; omega)
  rw [he, b_entry, rowOf_at]
  match g with
  | ⟨0, _⟩ => rfl
  | ⟨1, _⟩ => rfl
  | ⟨2, _⟩ => rfl
  | ⟨3, _⟩ => rfl

/-! ## What each point writes back -/

theorem hz : (![0, 0] : Fin 2 → Nat) = fun _ => 0 := funext fun a => by fin_cases a <;> rfl

/-- What point `t` writes back into the new hidden state is block `t` of the cell's new hidden state. -/
theorem flushedH_eq (c : Dev nD) (t : Fin cfg0.N) :
    (dats m 0 c).flushed 6 t = ((cfg0.win 6).blk t).view.read (Elt Ideal) (cellH (arrays m c)) := by
  show (cfg0.win 6).cut (grid0.coords t) ((dats m 0 c).after 6 t) = _
  rw [after_outH]
  unfold outH
  rw [View.canon_unit_zero hz]
  simp only [View.ld_unit_zero (S := S512x512) hz, View.ld_unit_zero (S := S512x2048) hz, View.ld_unit_zero (S := S1x2048) hz]
  funext y
  obtain ⟨p, q, rfl⟩ : ∃ (p q : Fin 512), y = ix2 p q := ⟨y 0, y 1, eq_ix2 y⟩
  refine (tileH (iblk m c 0 t) (iblk m c 1 t) (iblk m c 2 t) (iblk m c 3 t) (iblk m c 4 t) (iblk m c 5 t) (arrays m c) (t.val * 512) (tile_le t)
    (blk_x m c t) (blk_h m c t) (blk_c m c t) (blk_wx m c t) (blk_wh m c t) (blk_b m c t) p q).trans ?_
  obtain ⟨-, -, -, -, -, -, ⟨e0, e1⟩, -⟩ := idx_facts t
  show _ = cellH (arrays m c) (((cfg0.win 6).blk t).view.emb (ix2 p q))
  have he : ((cfg0.win 6).blk t).view.emb (ix2 p q) = (ix2 (row (t.val * 512) (tile_le t) p) q : S8192x512.Idx) := funext fun a => Fin.ext (by
    match a with
    | ⟨0, _⟩ => show win0_6.index t (0 : Fin 2) * 512 + 1 * p.val = t.val * 512 + p.val; omega
    | ⟨1, _⟩ => show win0_6.index t (1 : Fin 2) * 512 + 1 * q.val = q.val; omega)
  rw [he]
  rfl

/-- What point `t` writes back into the new cell state is block `t` of the cell's new cell state. -/
theorem flushedC_eq (c : Dev nD) (t : Fin cfg0.N) :
    (dats m 0 c).flushed 7 t = ((cfg0.win 7).blk t).view.read (Elt Ideal) (cellC (arrays m c)) := by
  show (cfg0.win 7).cut (grid0.coords t) ((dats m 0 c).after 7 t) = _
  rw [after_outC]
  unfold outC
  rw [View.canon_unit_zero hz]
  simp only [View.ld_unit_zero (S := S512x512) hz, View.ld_unit_zero (S := S512x2048) hz, View.ld_unit_zero (S := S1x2048) hz]
  funext y
  obtain ⟨p, q, rfl⟩ : ∃ (p q : Fin 512), y = ix2 p q := ⟨y 0, y 1, eq_ix2 y⟩
  refine (tileC (iblk m c 0 t) (iblk m c 1 t) (iblk m c 2 t) (iblk m c 3 t) (iblk m c 4 t) (iblk m c 5 t) (arrays m c) (t.val * 512) (tile_le t)
    (blk_x m c t) (blk_h m c t) (blk_c m c t) (blk_wx m c t) (blk_wh m c t) (blk_b m c t) p q).trans ?_
  obtain ⟨-, -, -, -, -, -, -, ⟨e0, e1⟩⟩ := idx_facts t
  show _ = cellC (arrays m c) (((cfg0.win 7).blk t).view.emb (ix2 p q))
  have he : ((cfg0.win 7).blk t).view.emb (ix2 p q) = (ix2 (row (t.val * 512) (tile_le t) p) q : S8192x512.Idx) := funext fun a => Fin.ext (by
    match a with
    | ⟨0, _⟩ => show win0_7.index t (0 : Fin 2) * 512 + 1 * p.val = t.val * 512 + p.val; omega
    | ⟨1, _⟩ => show win0_7.index t (1 : Fin 2) * 512 + 1 * q.val = q.val; omega)
  rw [he]
  rfl

/-! ## The sixteen tiles cover each result -/

/-- An entry of the array lies in point `t`'s block iff its row is one of the tile's. -/
theorem mem_blkH (t : Fin cfg0.N) (i : S8192x512.Idx) :
    i ∈ ((cfg0.win 6).blk t).view.set ↔ ∀ a : Fin 2, win0_6.index t a * S512x512.size a ≤ (i a).val ∧ (i a).val < win0_6.index t a * S512x512.size a + S512x512.size a := by
  show i ∈ ((View.whole main_v18_0).slice (win0_6.rect t)).set ↔ _
  rw [View.set_slice_whole, Rect.mem_set_unit]
  exact Iff.rfl

/-- Row `r` is written back by point `r / 512`: the sixteen tiles cover the array. -/
theorem coverH (i : S8192x512.Idx) : ∃ t : Fin cfg0.N, (cfg0.win 6).flush t = true ∧ i ∈ ((cfg0.win 6).blk t).view.set := by
  have h0 : (i 0).val < 8192 := (i 0).isLt
  have h1 : (i 1).val < 512 := (i 1).isLt
  have hN : (i 0).val / 512 < cfg0.N := by show _ < grid0.N; rw [N_0]; omega
  obtain ⟨-, -, -, -, -, -, ⟨e0, e1⟩, -⟩ := idx_facts ⟨(i 0).val / 512, hN⟩
  have e0' : win0_6.index ⟨(i 0).val / 512, hN⟩ (0 : Fin 2) = (i 0).val / 512 := e0
  refine ⟨⟨(i 0).val / 512, hN⟩, flush0_6 _, ?_⟩
  rw [mem_blkH]
  intro a
  match a with
  | ⟨0, _⟩ => show win0_6.index ⟨(i 0).val / 512, hN⟩ (0 : Fin 2) * 512 ≤ (i 0).val ∧ (i 0).val < win0_6.index ⟨(i 0).val / 512, hN⟩ (0 : Fin 2) * 512 + 512; omega
  | ⟨1, _⟩ => show win0_6.index ⟨(i 0).val / 512, hN⟩ (1 : Fin 2) * 512 ≤ (i 1).val ∧ (i 1).val < win0_6.index ⟨(i 0).val / 512, hN⟩ (1 : Fin 2) * 512 + 512; omega

/-- After the run the array holds the cell's new hidden state. -/
theorem finalH (c : Dev nD) : (dats m 0 c).arrAt 6 cfg0.N = cellH (arrays m c) :=
  (dats m 0 c).arrAt_eq_of_cover 6 (cellH (arrays m c)) (fun t _ => flushedH_eq m c t) coverH

/-- An entry of the array lies in point `t`'s block iff its row is one of the tile's. -/
theorem mem_blkC (t : Fin cfg0.N) (i : S8192x512.Idx) :
    i ∈ ((cfg0.win 7).blk t).view.set ↔ ∀ a : Fin 2, win0_7.index t a * S512x512.size a ≤ (i a).val ∧ (i a).val < win0_7.index t a * S512x512.size a + S512x512.size a := by
  show i ∈ ((View.whole main_v18_1).slice (win0_7.rect t)).set ↔ _
  rw [View.set_slice_whole, Rect.mem_set_unit]
  exact Iff.rfl

/-- Row `r` is written back by point `r / 512`: the sixteen tiles cover the array. -/
theorem coverC (i : S8192x512.Idx) : ∃ t : Fin cfg0.N, (cfg0.win 7).flush t = true ∧ i ∈ ((cfg0.win 7).blk t).view.set := by
  have h0 : (i 0).val < 8192 := (i 0).isLt
  have h1 : (i 1).val < 512 := (i 1).isLt
  have hN : (i 0).val / 512 < cfg0.N := by show _ < grid0.N; rw [N_0]; omega
  obtain ⟨-, -, -, -, -, -, -, ⟨e0, e1⟩⟩ := idx_facts ⟨(i 0).val / 512, hN⟩
  have e0' : win0_7.index ⟨(i 0).val / 512, hN⟩ (0 : Fin 2) = (i 0).val / 512 := e0
  refine ⟨⟨(i 0).val / 512, hN⟩, flush0_7 _, ?_⟩
  rw [mem_blkC]
  intro a
  match a with
  | ⟨0, _⟩ => show win0_7.index ⟨(i 0).val / 512, hN⟩ (0 : Fin 2) * 512 ≤ (i 0).val ∧ (i 0).val < win0_7.index ⟨(i 0).val / 512, hN⟩ (0 : Fin 2) * 512 + 512; omega
  | ⟨1, _⟩ => show win0_7.index ⟨(i 0).val / 512, hN⟩ (1 : Fin 2) * 512 ≤ (i 1).val ∧ (i 1).val < win0_7.index ⟨(i 0).val / 512, hN⟩ (1 : Fin 2) * 512 + 512; omega

/-- After the run the array holds the cell's new cell state. -/
theorem finalC (c : Dev nD) : (dats m 0 c).arrAt 7 cfg0.N = cellC (arrays m c) :=
  (dats m 0 c).arrAt_eq_of_cover 7 (cellC (arrays m c)) (fun t _ => flushedC_eq m c t) coverC

/-! ## The run, read -/

/-- Every weakly fair execution of the idealized program terminates with its first result at the cell's new hidden
    state, its second at the new cell state, and every argument array as launched. -/
theorem run : θ_run defs (onTc (τ := τ) (main (F := Ideal))) ⟨m, fun _ => 0, ρ⟩ fun r => ∀ c : Dev nD,
      r.2.mem ((c.tc : Thread nD τ).loc main_v18_0) = cellH (arrays m c)
      ∧ r.2.mem ((c.tc : Thread nD τ).loc main_v18_1) = cellC (arrays m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  (θ_run defs _ _).mono (fun r h c => ⟨((h c).1 6).trans (finalH m c), ((h c).1 7).trans (finalC m c),
      args_kept m (dats m) (A_eq m) r h c⟩) (run_main m ρ)

end Cert.KernelIdeal.CellValue

end
-- ==== Proof.CellRef.lean ====
/-
  The reference program's two results are the cell function of its argument arrays.

  The reference stacks the four gates' matrices into one 4 x 512 x 512 array and the four bias vectors of each
  projection into one 4 x 512 array, contracts x and h against the stacked matrices into 8192 x 4 x 512 arrays, adds
  the stacked biases after each product, slices gate `g` out of the sum as row `g` of the middle axis, and applies
  the logistic function as `1 / (1 + e^(-z))`. Entry by entry: a stacked array at `(g, …)` is piece `g` at `(…)`;
  the sliced pre-activation at `(r, j)` is the stacked one at `(r, g, j)`, which is the gate's linear part; and the
  quotient is the logistic function by definition.
-/
import proofs.«144557_j52338471469772_1_alg».proof.Proof.Gen.ReferenceIdeal.Read
import proofs.«144557_j52338471469772_1_alg».proof.Proof.CellSpec

noncomputable section

namespace Cert.ReferenceIdeal.Cell

open Cert.ReferenceIdeal Cert.ReferenceIdeal.Gen Cert.ReferenceIdeal.Read Cert.Cell
open Idealize.ShloMosaic Idealize.ShloMosaic.TcCoe Idealize.SL.Sem Idealize.ShloMosaic.ValueIdx

/-! ## The stacked arrays, entry by entry -/

/-- Four matrices, each given a leading axis of extent one and laid along it: entry `(g, j, k)` is matrix `g`'s `(j, k)`. -/
theorem stackW (lift : (⟨S512x512, .f32⟩ : BufTy).Contents (Elt Ideal) → (⟨S1x512x512, .f32⟩ : BufTy).Contents (Elt Ideal))
    (hlift : ∀ w (j k : Fin 512), lift w (ix3 (0 : Fin 1) j k) = w (ix2 j k))
    (w0 w1 w2 w3 : (⟨S512x512, .f32⟩ : BufTy).Contents (Elt Ideal)) (g : Fin 4) (j k : Fin 512) :
    concatenate S4x512x512 0 [⟨S1x512x512, lift w0⟩, ⟨S1x512x512, lift w1⟩, ⟨S1x512x512, lift w2⟩, ⟨S1x512x512, lift w3⟩]
        concatenates_S1x512x512_S1x512x512_S1x512x512_S1x512x512_S4x512x512_d0 (ix3 g j k)
      = pick4 w0 w1 w2 w3 g (ix2 j k) := by
  have hi : ∀ b : Fin S1x512x512.rank, b.cast (rfl : S1x512x512.rank = S4x512x512.rank) ≠ (0 : Fin S4x512x512.rank) →
      ((ix3 (0 : Fin 1) j k : S1x512x512.Idx) b).val = ((ix3 g j k : S4x512x512.Idx) (b.cast rfl)).val := fun b hb => by
    match b with
    | ⟨0, _⟩ => exact absurd rfl hb
    | ⟨1, _⟩ => rfl
    | ⟨2, _⟩ => rfl
  match g with
  | ⟨0, _⟩ => exact (concatenate_apply_piece (0 : Fin S4x512x512.rank) _ _ (ix3 _ j k) 0 (by simp) S1x512x512 (lift w0) rfl rfl 0 rfl (ix3 (0 : Fin 1) j k) hi rfl).trans (hlift w0 j k)
  | ⟨1, _⟩ => exact (concatenate_apply_piece (0 : Fin S4x512x512.rank) _ _ (ix3 _ j k) 1 (by simp) S1x512x512 (lift w1) rfl rfl 1 rfl (ix3 (0 : Fin 1) j k) hi rfl).trans (hlift w1 j k)
  | ⟨2, _⟩ => exact (concatenate_apply_piece (0 : Fin S4x512x512.rank) _ _ (ix3 _ j k) 2 (by simp) S1x512x512 (lift w2) rfl rfl 2 rfl (ix3 (0 : Fin 1) j k) hi rfl).trans (hlift w2 j k)
  | ⟨3, _⟩ => exact (concatenate_apply_piece (0 : Fin S4x512x512.rank) _ _ (ix3 _ j k) 3 (by simp) S1x512x512 (lift w3) rfl rfl 3 rfl (ix3 (0 : Fin 1) j k) hi rfl).trans (hlift w3 j k)

/-- Four vectors, each given a leading axis of extent one and laid along it: entry `(g, j)` is vector `g`'s `j`. -/
theorem stackB (lift : (⟨S512, .f32⟩ : BufTy).Contents (Elt Ideal) → (⟨S1x512, .f32⟩ : BufTy).Contents (Elt Ideal))
    (hlift : ∀ b (j : Fin 512), lift b (ix2 (0 : Fin 1) j) = b (ix1 j))
    (b0 b1 b2 b3 : (⟨S512, .f32⟩ : BufTy).Contents (Elt Ideal)) (g : Fin 4) (j : Fin 512) :
    concatenate S4x512 0 [⟨S1x512, lift b0⟩, ⟨S1x512, lift b1⟩, ⟨S1x512, lift b2⟩, ⟨S1x512, lift b3⟩]
        concatenates_S1x512_S1x512_S1x512_S1x512_S4x512_d0 (ix2 g j)
      = pick4 b0 b1 b2 b3 g (ix1 j) := by
  have hi : ∀ b : Fin S1x512.rank, b.cast (rfl : S1x512.rank = S4x512.rank) ≠ (0 : Fin S4x512.rank) →
      ((ix2 (0 : Fin 1) j : S1x512.Idx) b).val = ((ix2 g j : S4x512.Idx) (b.cast rfl)).val := fun b hb => by
    match b with
    | ⟨0, _⟩ => exact absurd rfl hb
    | ⟨1, _⟩ => rfl
  match g with
  | ⟨0, _⟩ => exact (concatenate_apply_piece (0 : Fin S4x512.rank) _ _ (ix2 _ j) 0 (by simp) S1x512 (lift b0) rfl rfl 0 rfl (ix2 (0 : Fin 1) j) hi rfl).trans (hlift b0 j)
  | ⟨1, _⟩ => exact (concatenate_apply_piece (0 : Fin S4x512.rank) _ _ (ix2 _ j) 1 (by simp) S1x512 (lift b1) rfl rfl 1 rfl (ix2 (0 : Fin 1) j) hi rfl).trans (hlift b1 j)
  | ⟨2, _⟩ => exact (concatenate_apply_piece (0 : Fin S4x512.rank) _ _ (ix2 _ j) 2 (by simp) S1x512 (lift b2) rfl rfl 2 rfl (ix2 (0 : Fin 1) j) hi rfl).trans (hlift b2 j)
  | ⟨3, _⟩ => exact (concatenate_apply_piece (0 : Fin S4x512.rank) _ _ (ix2 _ j) 3 (by simp) S1x512 (lift b3) rfl rfl 3 rfl (ix2 (0 : Fin 1) j) hi rfl).trans (hlift b3 j)

section
variable (x0 x1 x2 : (⟨S8192x512, .f32⟩ : BufTy).Contents (Elt Ideal))
  (x3 : (⟨S512x512, .f32⟩ : BufTy).Contents (Elt Ideal)) (x4 : (⟨S512, .f32⟩ : BufTy).Contents (Elt Ideal))
  (x5 : (⟨S512x512, .f32⟩ : BufTy).Contents (Elt Ideal)) (x6 : (⟨S512, .f32⟩ : BufTy).Contents (Elt Ideal))
  (x7 : (⟨S512x512, .f32⟩ : BufTy).Contents (Elt Ideal)) (x8 : (⟨S512, .f32⟩ : BufTy).Contents (Elt Ideal))
  (x9 : (⟨S512x512, .f32⟩ : BufTy).Contents (Elt Ideal)) (x10 : (⟨S512, .f32⟩ : BufTy).Contents (Elt Ideal))
  (x11 : (⟨S512x512, .f32⟩ : BufTy).Contents (Elt Ideal)) (x12 : (⟨S512, .f32⟩ : BufTy).Contents (Elt Ideal))
  (x13 : (⟨S512x512, .f32⟩ : BufTy).Contents (Elt Ideal)) (x14 : (⟨S512, .f32⟩ : BufTy).Contents (Elt Ideal))
  (x15 : (⟨S512x512, .f32⟩ : BufTy).Contents (Elt Ideal)) (x16 : (⟨S512, .f32⟩ : BufTy).Contents (Elt Ideal))
  (x17 : (⟨S512x512, .f32⟩ : BufTy).Contents (Elt Ideal)) (x18 : (⟨S512, .f32⟩ : BufTy).Contents (Elt Ideal))

theorem liftW (w : (⟨S512x512, .f32⟩ : BufTy).Contents (Elt Ideal)) (j k : Fin 512) :
    broadcastInDim S1x512x512 ![1, 2] bcast_S512x512_S1x512x512_1_2 w (ix3 (0 : Fin 1) j k) = w (ix2 j k) :=
  (val_main_v0_apply (F := Ideal) w (ix3 (0 : Fin 1) j k)).trans (congrArg w (funext fun a => Fin.ext (by
    match a with
    | ⟨0, _⟩ => rfl
    | ⟨1, _⟩ => rfl)))

theorem liftB (b : (⟨S512, .f32⟩ : BufTy).Contents (Elt Ideal)) (j : Fin 512) :
    broadcastInDim S1x512 ![1] bcast_S512_S1x512_1 b (ix2 (0 : Fin 1) j) = b (ix1 j) :=
  (val_main_v5_apply (F := Ideal) b (ix2 (0 : Fin 1) j)).trans (congrArg b (funext fun a => Fin.ext (by
    match a with
    | ⟨0, _⟩ => rfl)))

/-- The stacked input weights, in the order forget, candidate, input, output. -/
theorem stackWx (g : Fin 4) (j k : Fin 512) : val_main_v4 (F := Ideal) x3 x7 x11 x15 (ix3 g j k) = pick4 x3 x11 x7 x15 g (ix2 j k) :=
  stackW _ liftW x3 x11 x7 x15 g j k
/-- The stacked hidden weights, in the same order. -/
theorem stackWh (g : Fin 4) (j k : Fin 512) : val_main_v14 (F := Ideal) x5 x9 x13 x17 (ix3 g j k) = pick4 x5 x13 x9 x17 g (ix2 j k) :=
  stackW _ liftW x5 x13 x9 x17 g j k
/-- The stacked input biases. -/
theorem stackBx (g : Fin 4) (j : Fin 512) : val_main_v9 (F := Ideal) x4 x8 x12 x16 (ix2 g j) = pick4 x4 x12 x8 x16 g (ix1 j) :=
  stackB _ liftB x4 x12 x8 x16 g j
/-- The stacked hidden biases. -/
theorem stackBh (g : Fin 4) (j : Fin 512) : val_main_v19 (F := Ideal) x6 x10 x14 x18 (ix2 g j) = pick4 x6 x14 x10 x18 g (ix1 j) :=
  stackB _ liftB x6 x14 x10 x18 g j

/-! ## The stacked pre-activation at `(r, g, j)` is gate `g`'s linear part at `(r, j)` -/

theorem lidx_x (r : Fin 8192) (g : Fin 4) (j k : Fin 512) : lidx_main_v20 (ix3 r g j) k = ix2 r k :=
  funext fun a => Fin.ext (by match a with | ⟨0, _⟩ => rfl | ⟨1, _⟩ => rfl)
theorem ridx_x (r : Fin 8192) (g : Fin 4) (j k : Fin 512) : ridx_main_v20 (ix3 r g j) k = ix3 g j k :=
  funext fun a => Fin.ext (by match a with | ⟨0, _⟩ => rfl | ⟨1, _⟩ => rfl | ⟨2, _⟩ => rfl)
theorem lidx_h (r : Fin 8192) (g : Fin 4) (j k : Fin 512) : lidx_main_v24 (ix3 r g j) k = ix2 r k :=
  funext fun a => Fin.ext (by match a with | ⟨0, _⟩ => rfl | ⟨1, _⟩ => rfl)
theorem ridx_h (r : Fin 8192) (g : Fin 4) (j k : Fin 512) : ridx_main_v24 (ix3 r g j) k = ix3 g j k :=
  funext fun a => Fin.ext (by match a with | ⟨0, _⟩ => rfl | ⟨1, _⟩ => rfl | ⟨2, _⟩ => rfl)
theorem idx_bx (r : Fin 8192) (g : Fin 4) (j : Fin 512) : idx_main_v21 (idx_main_v22 (ix3 r g j)) = ix2 g j :=
  funext fun a => Fin.ext (by match a with | ⟨0, _⟩ => rfl | ⟨1, _⟩ => rfl)
theorem idx_bh (r : Fin 8192) (g : Fin 4) (j : Fin 512) : idx_main_v26 (idx_main_v27 (ix3 r g j)) = ix2 g j :=
  funext fun a => Fin.ext (by match a with | ⟨0, _⟩ => rfl | ⟨1, _⟩ => rfl)

theorem pre_apply (r : Fin 8192) (g : Fin 4) (j : Fin 512) :
    val_main_v28 (F := Ideal) x0 x1 x3 x4 x5 x6 x7 x8 x9 x10 x11 x12 x13 x14 x15 x16 x17 x18 (ix3 r g j)
      = gate x0 x1 (pick4 x3 x11 x7 x15 g) (pick4 x5 x13 x9 x17 g) (pick4 x4 x12 x8 x16 g) (pick4 x6 x14 x10 x18 g) r j := by
  rw [val_main_v28_apply, val_main_v25_apply, val_main_v23_apply, val_main_v20_apply, val_main_v24_apply,
    val_main_v22_apply, val_main_v21_apply, val_main_v27_apply, val_main_v26_apply, idx_bx, idx_bh, stackBx, stackBh]
  simp only [lidx_x, ridx_x, lidx_h, ridx_h, stackWx, stackWh, Ideal.addf_def]
  rfl

/-! ## Each gate, sliced out and flattened -/

theorem idx_gate0 (r : Fin 8192) (j : Fin 512) : idx_main_v29 (idx_main_v30 (ix2 r j)) = ix3 r (0 : Fin 4) j :=
  funext fun a => Fin.ext (by
    match a with
    | ⟨0, _⟩ => show (r.val * 512 + j.val) / 512 = r.val; have := j.isLt; omega
    | ⟨1, _⟩ => rfl
    | ⟨2, _⟩ => show (r.val * 512 + j.val) % 512 = j.val; have := j.isLt; omega)
theorem idx_gate1 (r : Fin 8192) (j : Fin 512) : idx_main_v37 (idx_main_v38 (ix2 r j)) = ix3 r (1 : Fin 4) j :=
  funext fun a => Fin.ext (by
    match a with
    | ⟨0, _⟩ => show (r.val * 512 + j.val) / 512 = r.val; have := j.isLt; omega
    | ⟨1, _⟩ => rfl
    | ⟨2, _⟩ => show (r.val * 512 + j.val) % 512 = j.val; have := j.isLt; omega)
theorem idx_gate2 (r : Fin 8192) (j : Fin 512) : idx_main_v40 (idx_main_v41 (ix2 r j)) = ix3 r (2 : Fin 4) j :=
  funext fun a => Fin.ext (by
    match a with
    | ⟨0, _⟩ => show (r.val * 512 + j.val) / 512 = r.val; have := j.isLt; omega
    | ⟨1, _⟩ => rfl
    | ⟨2, _⟩ => show (r.val * 512 + j.val) % 512 = j.val; have := j.isLt; omega)
theorem idx_gate3 (r : Fin 8192) (j : Fin 512) : idx_main_v48 (idx_main_v49 (ix2 r j)) = ix3 r (3 : Fin 4) j :=
  funext fun a => Fin.ext (by
    match a with
    | ⟨0, _⟩ => show (r.val * 512 + j.val) / 512 = r.val; have := j.isLt; omega
    | ⟨1, _⟩ => rfl
    | ⟨2, _⟩ => show (r.val * 512 + j.val) % 512 = j.val; have := j.isLt; omega)

/-- The arrays the reference is run on, named as the cell's. -/
abbrev arr : Arrays := ⟨x0, x1, x2, x3, x4, x5, x6, x7, x8, x9, x10, x11, x12, x13, x14, x15, x16, x17, x18⟩

theorem zf_apply (r : Fin 8192) (j : Fin 512) :
    val_main_v30 (F := Ideal) x0 x1 x3 x4 x5 x6 x7 x8 x9 x10 x11 x12 x13 x14 x15 x16 x17 x18 (ix2 r j) = (arr x0 x1 x2 x3 x4 x5 x6 x7 x8 x9 x10 x11 x12 x13 x14 x15 x16 x17 x18).zf r j := by
  rw [val_main_v30_apply, val_main_v29_apply, idx_gate0, pre_apply]; rfl
theorem zg_apply (r : Fin 8192) (j : Fin 512) :
    val_main_v38 (F := Ideal) x0 x1 x3 x4 x5 x6 x7 x8 x9 x10 x11 x12 x13 x14 x15 x16 x17 x18 (ix2 r j) = (arr x0 x1 x2 x3 x4 x5 x6 x7 x8 x9 x10 x11 x12 x13 x14 x15 x16 x17 x18).zg r j := by
  rw [val_main_v38_apply, val_main_v37_apply, idx_gate1, pre_apply]; rfl
theorem zi_apply (r : Fin 8192) (j : Fin 512) :
    val_main_v41 (F := Ideal) x0 x1 x3 x4 x5 x6 x7 x8 x9 x10 x11 x12 x13 x14 x15 x16 x17 x18 (ix2 r j) = (arr x0 x1 x2 x3 x4 x5 x6 x7 x8 x9 x10 x11 x12 x13 x14 x15 x16 x17 x18).zi r j := by
  rw [val_main_v41_apply, val_main_v40_apply, idx_gate2, pre_apply]; rfl
theorem zo_apply (r : Fin 8192) (j : Fin 512) :
    val_main_v49 (F := Ideal) x0 x1 x3 x4 x5 x6 x7 x8 x9 x10 x11 x12 x13 x14 x15 x16 x17 x18 (ix2 r j) = (arr x0 x1 x2 x3 x4 x5 x6 x7 x8 x9 x10 x11 x12 x13 x14 x15 x16 x17 x18).zo r j := by
  rw [val_main_v49_apply, val_main_v48_apply, idx_gate3, pre_apply]; rfl

/-! ## The logistic function spelt as a quotient -/

/-- `1 / (1 + e^(-z))` in the host's operations, the ones written as the pattern of `1.0`, is the logistic function. -/
theorem quotient_logistic (z : EReal) :
    FloatOps.hostDivf (F := Ideal) (φ := .f32) (FloatOps.ofBits .f32 0x3F800000#32)
        (FloatOps.addf (FloatOps.ofBits .f32 0x3F800000#32) (FloatOps.hostUnary .exp (FloatOps.hostNegf z)))
      = Ideal.logistic z := by
  simp only [Ideal.ofBits_def, one_f32]
  rfl

theorem f_apply (r : Fin 8192) (j : Fin 512) :
    val_main_v36 (F := Ideal) x0 x1 x3 x4 x5 x6 x7 x8 x9 x10 x11 x12 x13 x14 x15 x16 x17 x18 (ix2 r j) = Ideal.logistic ((arr x0 x1 x2 x3 x4 x5 x6 x7 x8 x9 x10 x11 x12 x13 x14 x15 x16 x17 x18).zf r j) := by
  rw [val_main_v36_apply, val_main_v35_apply, val_main_cst_0_apply, val_main_v34_apply, val_main_v33_apply, val_main_cst_apply,
    val_main_v32_apply, val_main_v31_apply, zf_apply]
  exact quotient_logistic _
theorem i_apply (r : Fin 8192) (j : Fin 512) :
    val_main_v47 (F := Ideal) x0 x1 x3 x4 x5 x6 x7 x8 x9 x10 x11 x12 x13 x14 x15 x16 x17 x18 (ix2 r j) = Ideal.logistic ((arr x0 x1 x2 x3 x4 x5 x6 x7 x8 x9 x10 x11 x12 x13 x14 x15 x16 x17 x18).zi r j) := by
  rw [val_main_v47_apply, val_main_v46_apply, val_main_cst_2_apply, val_main_v45_apply, val_main_v44_apply, val_main_cst_1_apply,
    val_main_v43_apply, val_main_v42_apply, zi_apply]
  exact quotient_logistic _
theorem o_apply (r : Fin 8192) (j : Fin 512) :
    val_main_v55 (F := Ideal) x0 x1 x3 x4 x5 x6 x7 x8 x9 x10 x11 x12 x13 x14 x15 x16 x17 x18 (ix2 r j) = Ideal.logistic ((arr x0 x1 x2 x3 x4 x5 x6 x7 x8 x9 x10 x11 x12 x13 x14 x15 x16 x17 x18).zo r j) := by
  rw [val_main_v55_apply, val_main_v54_apply, val_main_cst_4_apply, val_main_v53_apply, val_main_v52_apply, val_main_cst_3_apply,
    val_main_v51_apply, val_main_v50_apply, zo_apply]
  exact quotient_logistic _
theorem g_apply (r : Fin 8192) (j : Fin 512) :
    val_main_v39 (F := Ideal) x0 x1 x3 x4 x5 x6 x7 x8 x9 x10 x11 x12 x13 x14 x15 x16 x17 x18 (ix2 r j) = Ideal.tanh ((arr x0 x1 x2 x3 x4 x5 x6 x7 x8 x9 x10 x11 x12 x13 x14 x15 x16 x17 x18).zg r j) := by
  rw [val_main_v39_apply, zg_apply]; rfl

/-! ## The two results -/

theorem c_apply (r : Fin 8192) (j : Fin 512) :
    val_main_v58 (F := Ideal) x0 x1 x2 x3 x4 x5 x6 x7 x8 x9 x10 x11 x12 x13 x14 x15 x16 x17 x18 (ix2 r j) = newC (arr x0 x1 x2 x3 x4 x5 x6 x7 x8 x9 x10 x11 x12 x13 x14 x15 x16 x17 x18) r j := by
  rw [val_main_v58_apply, val_main_v56_apply, val_main_v57_apply, f_apply, i_apply, g_apply]; rfl
theorem h_apply (r : Fin 8192) (j : Fin 512) :
    val_main_v60 (F := Ideal) x0 x1 x2 x3 x4 x5 x6 x7 x8 x9 x10 x11 x12 x13 x14 x15 x16 x17 x18 (ix2 r j) = newH (arr x0 x1 x2 x3 x4 x5 x6 x7 x8 x9 x10 x11 x12 x13 x14 x15 x16 x17 x18) r j := by
  rw [val_main_v60_apply, val_main_v59_apply, o_apply, c_apply]; rfl

theorem c_eq : val_main_v58 (F := Ideal) x0 x1 x2 x3 x4 x5 x6 x7 x8 x9 x10 x11 x12 x13 x14 x15 x16 x17 x18 = cellC (arr x0 x1 x2 x3 x4 x5 x6 x7 x8 x9 x10 x11 x12 x13 x14 x15 x16 x17 x18) := by
  funext i
  obtain ⟨r, j, rfl⟩ : ∃ (r : Fin 8192) (j : Fin 512), i = ix2 r j := ⟨i 0, i 1, eq_ix2 i⟩
  exact c_apply x0 x1 x2 x3 x4 x5 x6 x7 x8 x9 x10 x11 x12 x13 x14 x15 x16 x17 x18 r j
theorem h_eq : val_main_v60 (F := Ideal) x0 x1 x2 x3 x4 x5 x6 x7 x8 x9 x10 x11 x12 x13 x14 x15 x16 x17 x18 = cellH (arr x0 x1 x2 x3 x4 x5 x6 x7 x8 x9 x10 x11 x12 x13 x14 x15 x16 x17 x18) := by
  funext i
  obtain ⟨r, j, rfl⟩ : ∃ (r : Fin 8192) (j : Fin 512), i = ix2 r j := ⟨i 0, i 1, eq_ix2 i⟩
  exact h_apply x0 x1 x2 x3 x4 x5 x6 x7 x8 x9 x10 x11 x12 x13 x14 x15 x16 x17 x18 r j

end

/-- The cell's arrays, read off the reference's launch memory on device `c`. -/
abbrev arrays (m : (ℓ : Loc nD τ sig) → Buf (Elt Ideal) ℓ) (c : Dev nD) : Arrays :=
  arr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))

/-- The reference's first result is the new hidden state, its second the new cell state. -/
theorem res_h (m : (ℓ : Loc nD τ sig) → Buf (Elt Ideal) ℓ) (c : Dev nD) : Cert.ReferenceIdeal.Value.res_main_v60 m c = cellH (arrays m c) :=
  (val_main_v60_eq m c).trans (h_eq ..)
theorem res_c (m : (ℓ : Loc nD τ sig) → Buf (Elt Ideal) ℓ) (c : Dev nD) : Cert.ReferenceIdeal.Value.res_main_v58 m c = cellC (arrays m c) :=
  (val_main_v58_eq m c).trans (c_eq ..)

end Cert.ReferenceIdeal.Cell

end
-- ==== Proof.lean ====
/-
  The certificate of an LSTM cell: a kernel that fuses the eight gate projections into two products against the four
  gates' weights laid side by side, adds one folded bias row, and gates on a batch tile at a time, against a reference
  that stacks the four gates on an axis of their own, contracts over the stacked matrices, adds the two bias stacks
  one after each product, and spells the logistic function as a quotient.

  Frames: the word-level and the idealized kernel programs each run to the end and leave their nineteen argument
  arrays as launched (host operations that write only fresh buffers, then one pipelined region whose body loads and
  stores whole staging buffers); the reference is host operations only, and its run is read back operation by
  operation. The idealization changes nothing the claim must account for.

  Values: over the extended reals both programs' results are ONE function of the arguments, the cell
  `c' = σ(z_f) · c + σ(z_i) · tanh(z_g)`, `h' = σ(z_o) · tanh(c')` with `z` each gate's linear part. The kernel's side
  reads each written-back tile off the run and covers the batch with the sixteen tiles; the reference's side reads
  its composed term entry by entry. The two groupings of `z` agree because addition of extended reals is associative
  and commutative, and the two spellings of `σ` agree by definition; no entry need be finite.
-/
import proofs.«144557_j52338471469772_1_alg».proof.Defs
import proofs.«144557_j52338471469772_1_alg».proof.Proof.Gen.Kernel
import proofs.«144557_j52338471469772_1_alg».proof.Proof.Gen.KernelIdeal
import proofs.«144557_j52338471469772_1_alg».proof.Proof.Gen.ReferenceIdeal
import proofs.«144557_j52338471469772_1_alg».proof.Proof.Gen.Pre_finite_inputs
import proofs.«144557_j52338471469772_1_alg».proof.Proof.Gen.ReferenceIdeal.Run
import proofs.«144557_j52338471469772_1_alg».proof.Proof.Gen.ReferenceIdeal.Read
import proofs.«144557_j52338471469772_1_alg».proof.Proof.CellFrameBits
import proofs.«144557_j52338471469772_1_alg».proof.Proof.CellArrays
import proofs.«144557_j52338471469772_1_alg».proof.Proof.CellRef
import Idealize.ShloMosaic.Adequacy
import Idealize.ShloMosaic.Init

noncomputable section

namespace Cert.Proof

open Idealize.ShloMosaic Idealize.SL.Sem Cert.Cell

theorem frame_k : Cert.frame_Kernel := fun m ρ _ => Cert.Kernel.Cell.frame m ρ

theorem frame_ki : Cert.frame_KernelIdeal := fun m ρ _ => Cert.KernelIdeal.Cell.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization recorded no rewrite. -/
theorem preserves : Cert.preserves_Kernel_KernelIdeal := trivial

/-- Memories that agree on the nineteen arguments give the two programs the same arrays. -/
theorem arrays_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) :
    Cert.ReferenceIdeal.Cell.arrays m' c = Cert.KernelIdeal.CellValue.arrays m c := by
  obtain ⟨h0, h1, h2, h3, h4, h5, h6, h7, h8, h9, h10, h11, h12, h13, h14, h15, h16, h17, h18⟩ := hagree
  show Arrays.mk _ _ _ _ _ _ _ _ _ _ _ _ _ _ _ _ _ _ _ = Arrays.mk _ _ _ _ _ _ _ _ _ _ _ _ _ _ _ _ _ _ _
  rw [h0, h1, h2, h3, h4, h5, h6, h7, h8, h9, h10, h11, h12, h13, h14, h15, h16, h17, h18]

/-- Both programs end with the cell's new hidden state and new cell state of the arguments. -/
theorem algebraic : Cert.algebraic_KernelIdeal_ReferenceIdeal := by
  intro m ρ m' ρ' _ hagree
  refine ⟨fun c => cellH (Cert.KernelIdeal.CellValue.arrays m c), fun c => cellC (Cert.KernelIdeal.CellValue.arrays m c),
    Cert.KernelIdeal.CellValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Cell.res_h, arrays_agree m m' c (hagree c)]
  · rw [Cert.ReferenceIdeal.Cell.res_c, arrays_agree m m' c (hagree c)]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
